-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256x7x7 : Shape := ⟨4, ![1024, 256, 7, 7]⟩
abbrev S80x256 : Shape := ⟨2, ![80, 256]⟩
abbrev S80 : Shape := ⟨1, ![80]⟩
abbrev S320x256 : Shape := ⟨2, ![320, 256]⟩
abbrev S320 : Shape := ⟨1, ![320]⟩
abbrev S_ : Shape := ⟨0, ![]⟩

class Facts : Prop where
  bcast_S_S1024x256x7x7 : S_.BroadcastsInDim S1024x256x7x7 (![] : Fin 0 → Fin S1024x256x7x7.rank)
  reducesTo_S1024x256x7x7_S_d0_1_2_3 : S1024x256x7x7.ReducesTo [0, 1, 2, 3] S_
  h_S_ : 0 < S_.numel
  bcast_S_S80x256 : S_.BroadcastsInDim S80x256 (![] : Fin 0 → Fin S80x256.rank)
  reducesTo_S80x256_S_d0_1 : S80x256.ReducesTo [0, 1] S_
  bcast_S_S80 : S_.BroadcastsInDim S80 (![] : Fin 0 → Fin S80.rank)
  reducesTo_S80_S_d0 : S80.ReducesTo [0] S_
  bcast_S_S320x256 : S_.BroadcastsInDim S320x256 (![] : Fin 0 → Fin S320x256.rank)
  reducesTo_S320x256_S_d0_1 : S320x256.ReducesTo [0, 1] S_
  bcast_S_S320 : S_.BroadcastsInDim S320 (![] : Fin 0 → Fin S320.rank)
  reducesTo_S320_S_d0 : S320.ReducesTo [0] S_

variable [Facts]

def fn_part1 {F : FTy → Type} [FloatOps F] (main_arg4 : FVec F S320 .f32) (main_v13 : IVec S_ 1) (main_v16 : IVec S320x256 1) : IVec S_ 1 :=
  let main_c_5 : IVec S_ 1 := constantI S_ 1 1#1
  let main_v17 : IVec S_ 1 := (fun x v => Host.reduce IntOp.andi x v reducesTo_S320x256_S_d0_1 h_S_) main_v16 main_c_5
  let main_v18 : IVec S_ 1 := andi main_v13 main_v17
  let main_v19 : FVec F S320 .f32 := Host.absf main_arg4
  let main_cst_6 : FVec F S_ .f32 := constant S_ .f32 0x7F800000#32
  let main_v20 : FVec F S320 .f32 := broadcastInDim S320 ![] bcast_S_S320 main_cst_6
  let main_v21 : IVec S320 1 := cmpf .olt main_v19 main_v20
  let main_c_7 : IVec S_ 1 := constantI S_ 1 1#1
  let main_v22 : IVec S_ 1 := (fun x v => Host.reduce IntOp.andi x v reducesTo_S320_S_d0 h_S_) main_v21 main_c_7
  let main_v23 : IVec S_ 1 := andi main_v18 main_v22
  main_v23

def fn {F : FTy → Type} [FloatOps F] (main_arg0 : FVec F S1024x256x7x7 .f32) (main_arg1 : FVec F S80x256 .f32) (main_arg2 : FVec F S80 .f32) (main_arg3 : FVec F S320x256 .f32) (main_arg4 : FVec F S320 .f32) : IVec S_ 1 :=
  let main_v0 : FVec F S1024x256x7x7 .f32 := Host.absf main_arg0
  let main_cst : FVec F S_ .f32 := constant S_ .f32 0x7F800000#32
  let main_v1 : FVec F S1024x256x7x7 .f32 := broadcastInDim S1024x256x7x7 ![] bcast_S_S1024x256x7x7 main_cst
  let main_v2 : IVec S1024x256x7x7 1 := cmpf .olt main_v0 main_v1
  let main_c : IVec S_ 1 := constantI S_ 1 1#1
  let main_v3 : IVec S_ 1 := (fun x v => Host.reduce IntOp.andi x v reducesTo_S1024x256x7x7_S_d0_1_2_3 h_S_) main_v2 main_c
  let main_v4 : FVec F S80x256 .f32 := Host.absf main_arg1
  let main_cst_0 : FVec F S_ .f32 := constant S_ .f32 0x7F800000#32
  let main_v5 : FVec F S80x256 .f32 := broadcastInDim S80x256 ![] bcast_S_S80x256 main_cst_0
  let main_v6 : IVec S80x256 1 := cmpf .olt main_v4 main_v5
  let main_c_1 : IVec S_ 1 := constantI S_ 1 1#1
  let main_v7 : IVec S_ 1 := (fun x v => Host.reduce IntOp.andi x v reducesTo_S80x256_S_d0_1 h_S_) main_v6 main_c_1
  let main_v8 : IVec S_ 1 := andi main_v3 main_v7
  let main_v9 : FVec F S80 .f32 := Host.absf main_arg2
  let main_cst_2 : FVec F S_ .f32 := constant S_ .f32 0x7F800000#32
  let main_v10 : FVec F S80 .f32 := broadcastInDim S80 ![] bcast_S_S80 main_cst_2
  let main_v11 : IVec S80 1 := cmpf .olt main_v9 main_v10
  let main_c_3 : IVec S_ 1 := constantI S_ 1 1#1
  let main_v12 : IVec S_ 1 := (fun x v => Host.reduce IntOp.andi x v reducesTo_S80_S_d0 h_S_) main_v11 main_c_3
  let main_v13 : IVec S_ 1 := andi main_v8 main_v12
  let main_v14 : FVec F S320x256 .f32 := Host.absf main_arg3
  let main_cst_4 : FVec F S_ .f32 := constant S_ .f32 0x7F800000#32
  let main_v15 : FVec F S320x256 .f32 := broadcastInDim S320x256 ![] bcast_S_S320x256 main_cst_4
  let main_v16 : IVec S320x256 1 := cmpf .olt main_v14 main_v15
  fn_part1 (F := F) main_arg4 main_v13 main_v16
-- ==== Kernel.lean ====
abbrev S1024x256x7x7 : Shape := ⟨4, ![1024, 256, 7, 7]⟩
abbrev S80x256 : Shape := ⟨2, ![80, 256]⟩
abbrev S80 : Shape := ⟨1, ![80]⟩
abbrev S320x256 : Shape := ⟨2, ![320, 256]⟩
abbrev S320 : Shape := ⟨1, ![320]⟩
abbrev S7x7x1024x256 : Shape := ⟨4, ![7, 7, 1024, 256]⟩
abbrev S49x1024x256 : Shape := ⟨3, ![49, 1024, 256]⟩
abbrev S400x256 : Shape := ⟨2, ![400, 256]⟩
abbrev S400 : Shape := ⟨1, ![400]⟩
abbrev S400x1 : Shape := ⟨2, ![400, 1]⟩
abbrev S400x257 : Shape := ⟨2, ![400, 257]⟩
abbrev S80x1024 : Shape := ⟨2, ![80, 1024]⟩
abbrev S320x1024 : Shape := ⟨2, ![320, 1024]⟩
abbrev S49x128x256 : Shape := ⟨3, ![49, 128, 256]⟩
abbrev S80x128 : Shape := ⟨2, ![80, 128]⟩
abbrev S320x128 : Shape := ⟨2, ![320, 128]⟩
abbrev S128x256 : Shape := ⟨2, ![128, 256]⟩
abbrev S400x128 : Shape := ⟨2, ![400, 128]⟩
abbrev S1024x80 : Shape := ⟨2, ![1024, 80]⟩
abbrev S1024x320 : Shape := ⟨2, ![1024, 320]⟩

abbrev nBuf : Space → Nat
  | .hbm => 15
  | .vmem => 7
  | .smem => 0
  | _ => 0

abbrev bufTy : (tb : Table) → Fin (tcTables nBuf tb) → BufTy
  | .hbm, ⟨0, _⟩ => ⟨S1024x256x7x7, .f32⟩
  | .hbm, ⟨1, _⟩ => ⟨S80x256, .f32⟩
  | .hbm, ⟨2, _⟩ => ⟨S80, .f32⟩
  | .hbm, ⟨3, _⟩ => ⟨S320x256, .f32⟩
  | .hbm, ⟨4, _⟩ => ⟨S320, .f32⟩
  | .hbm, ⟨5, _⟩ => ⟨S7x7x1024x256, .f32⟩
  | .hbm, ⟨6, _⟩ => ⟨S49x1024x256, .f32⟩
  | .hbm, ⟨7, _⟩ => ⟨S400x256, .f32⟩
  | .hbm, ⟨8, _⟩ => ⟨S400, .f32⟩
  | .hbm, ⟨9, _⟩ => ⟨S400x1, .f32⟩
  | .hbm, ⟨10, _⟩ => ⟨S400x257, .f32⟩
  | .hbm, ⟨11, _⟩ => ⟨S80x1024, .f32⟩
  | .hbm, ⟨12, _⟩ => ⟨S320x1024, .f32⟩
  | .hbm, ⟨13, _⟩ => ⟨S1024x80, .f32⟩
  | .hbm, ⟨14, _⟩ => ⟨S1024x320, .f32⟩
  | .local _ .vmem, ⟨0, _⟩ => ⟨S49x128x256, .f32⟩
  | .local _ .vmem, ⟨1, _⟩ => ⟨S49x128x256, .f32⟩
  | .local _ .vmem, ⟨2, _⟩ => ⟨S400x257, .f32⟩
  | .local _ .vmem, ⟨3, _⟩ => ⟨S80x128, .f32⟩
  | .local _ .vmem, ⟨4, _⟩ => ⟨S80x128, .f32⟩
  | .local _ .vmem, ⟨5, _⟩ => ⟨S320x128, .f32⟩
  | .local _ .vmem, ⟨6, _⟩ => ⟨S320x128, .f32⟩
  | _, _ => ⟨S1024x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S49x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S400x257 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S80x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1024x256x7x7_S7x7x1024x256_2_3_0_1 : S1024x256x7x7.Transposes [2, 3, 0, 1] S7x7x1024x256
  shapeCasts_S7x7x1024x256_S49x1024x256 : S7x7x1024x256.ShapeCasts S49x1024x256
  concatenates_S80x256_S320x256_S400x256_d0 : Shape.Concatenates [S80x256, S320x256] S400x256 0
  concatenates_S80_S320_S400_d0 : Shape.Concatenates [S80, S320] S400 0
  bcast_S400_S400x1_0 : S400.BroadcastsInDim S400x1 (![0] : Fin 1 → Fin S400x1.rank)
  concatenates_S400x256_S400x1_S400x257_d1 : Shape.Concatenates [S400x256, S400x1] S400x257 1
  inb_S49x128x256_S49x128x256_0_0_0 : ∀ a, (![0, 0, 0] : Fin 3 → Nat) a + S49x128x256.size a ≤ S49x128x256.size a
  h_S49x128x256 : 0 < S49x128x256.numel
  shapeCasts_S49x128x256_S49x128x256 : S49x128x256.ShapeCasts S49x128x256
  reduces_S49x128x256_S128x256 : S49x128x256.Reduces [0] S128x256
  inb_S400x257_S400x256_0_0 : ∀ a, (![0, 0] : Fin 2 → Nat) a + S400x256.size a ≤ S400x257.size a
  h_S400x256 : 0 < S400x256.numel
  shapeCasts_S400x256_S400x256 : S400x256.ShapeCasts S400x256
  inb_S400x257_S400x1_0_256 : ∀ a, (![0, 256] : Fin 2 → Nat) a + S400x1.size a ≤ S400x257.size a
  h_S400x1 : 0 < S400x1.numel
  shapeCasts_S400x1_S400x1 : S400x1.ShapeCasts S400x1
  broadcasts_S400x1_S400x128 : S400x1.Broadcasts S400x128
  slices_S400x128_o0_0_S80x128 : S400x128.Slices ![0, 0] S80x128
  inb_S80x128_S80x128_0_0 : ∀ a, (![0, 0] : Fin 2 → Nat) a + S80x128.size a ≤ S80x128.size a
  h_S80x128 : 0 < S80x128.numel
  slices_S400x128_o80_0_S320x128 : S400x128.Slices ![80, 0] S320x128
  inb_S320x128_S320x128_0_0 : ∀ a, (![0, 0] : Fin 2 → Nat) a + S320x128.size a ≤ S320x128.size a
  h_S320x128 : 0 < S320x128.numel
  transposes_S80x1024_S1024x80_1_0 : S80x1024.Transposes [1, 0] S1024x80
  transposes_S320x1024_S1024x320_1_0 : S320x1024.Transposes [1, 0] S1024x320
  dot_S400x256_S128x256_S400x128_1_1_0_0_n_n_wf : DotDims.WF S400x256 S128x256 S400x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S49x128x256.size a ≤ S49x1024x256.size a
  hwx0_0 : ∀ i : grid0.Coords, EltTy.bits .f32 = 32 ∨ (Rect.block (s := S49x1024x256) S49x128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S400x257.size a ≤ S400x257.size a
  hwx0_1 : ∀ i : grid0.Coords, EltTy.bits .f32 = 32 ∨ (Rect.block (s := S400x257) S400x257.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S80x128.size a ≤ S80x1024.size a
  hwx0_2 : ∀ i : grid0.Coords, EltTy.bits .f32 = 32 ∨ (Rect.block (s := S80x1024) S80x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S320x128.size a ≤ S320x1024.size a
  hwx0_3 : ∀ i : grid0.Coords, EltTy.bits .f32 = 32 ∨ (Rect.block (s := S320x1024) S320x128.size (cc0_transform_3 i) (hinb0_3 i)).WholeWords (EltTy.packing .f32)

variable [Facts₀]

def dot_S400x256_S128x256_S400x128_1_1_0_0_n_n : DotDims S400x256 S128x256 S400x128 where
  lhsContracting := [1]
  rhsContracting := [1]
  lhsNonContracting := [0]
  rhsNonContracting := [0]
  lhsBatch := []
  rhsBatch := []
  wf := dot_S400x256_S128x256_S400x128_1_1_0_0_n_n_wf

abbrev win0_0 : Pipeline.Window sig grid0 :=
  Pipeline.Window.ofSpec (Memref.whole main_v1) S49x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S400x257.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S80x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S320x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x256x7x7 : Shape := ⟨4, ![1024, 256, 7, 7]⟩
abbrev S80x256 : Shape := ⟨2, ![80, 256]⟩
abbrev S80 : Shape := ⟨1, ![80]⟩
abbrev S320x256 : Shape := ⟨2, ![320, 256]⟩
abbrev S320 : Shape := ⟨1, ![320]⟩
abbrev S1x80 : Shape := ⟨2, ![1, 80]⟩
abbrev S1x320 : Shape := ⟨2, ![1, 320]⟩
abbrev S1024x256x49 : Shape := ⟨3, ![1024, 256, 49]⟩
abbrev S1024x80 : Shape := ⟨2, ![1024, 80]⟩
abbrev S1024x320 : Shape := ⟨2, ![1024, 320]⟩
abbrev S128x256x49 : Shape := ⟨3, ![128, 256, 49]⟩
abbrev S128x80 : Shape := ⟨2, ![128, 80]⟩
abbrev S128x320 : Shape := ⟨2, ![128, 320]⟩
abbrev S128x256 : Shape := ⟨2, ![128, 256]⟩

abbrev nBuf : Space → Nat
  | .hbm => 10
  | .vmem => 11
  | .smem => 0
  | _ => 0

abbrev bufTy : (tb : Table) → Fin (tcTables nBuf tb) → BufTy
  | .hbm, ⟨0, _⟩ => ⟨S1024x256x7x7, .f32⟩
  | .hbm, ⟨1, _⟩ => ⟨S80x256, .f32⟩
  | .hbm, ⟨2, _⟩ => ⟨S80, .f32⟩
  | .hbm, ⟨3, _⟩ => ⟨S320x256, .f32⟩
  | .hbm, ⟨4, _⟩ => ⟨S320, .f32⟩
  | .hbm, ⟨5, _⟩ => ⟨S1x80, .f32⟩
  | .hbm, ⟨6, _⟩ => ⟨S1x320, .f32⟩
  | .hbm, ⟨7, _⟩ => ⟨S1024x256x49, .f32⟩
  | .hbm, ⟨8, _⟩ => ⟨S1024x80, .f32⟩
  | .hbm, ⟨9, _⟩ => ⟨S1024x320, .f32⟩
  | .local _ .vmem, ⟨0, _⟩ => ⟨S128x256x49, .f32⟩
  | .local _ .vmem, ⟨1, _⟩ => ⟨S128x256x49, .f32⟩
  | .local _ .vmem, ⟨2, _⟩ => ⟨S80x256, .f32⟩
  | .local _ .vmem, ⟨3, _⟩ => ⟨S1x80, .f32⟩
  | .local _ .vmem, ⟨4, _⟩ => ⟨S320x256, .f32⟩
  | .local _ .vmem, ⟨5, _⟩ => ⟨S1x320, .f32⟩
  | .local _ .vmem, ⟨6, _⟩ => ⟨S128x80, .f32⟩
  | .local _ .vmem, ⟨7, _⟩ => ⟨S128x80, .f32⟩
  | .local _ .vmem, ⟨8, _⟩ => ⟨S128x320, .f32⟩
  | .local _ .vmem, ⟨9, _⟩ => ⟨S128x320, .f32⟩
  | .local _ .vmem, ⟨10, _⟩ => ⟨S128x256, .f32⟩
  | _, _ => ⟨S1024x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_7 : BitVec 32 := 0#32
  let v11 : BitVec 1 := Scalar.cmpi .eq arg1 c0_i32_7
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x256x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S80x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S320x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x80 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S80_S1x80 : S80.ShapeCasts S1x80
  shapeCasts_S320_S1x320 : S320.ShapeCasts S1x320
  shapeCasts_S1024x256x7x7_S1024x256x49 : S1024x256x7x7.ShapeCasts S1024x256x49
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x256x49_S128x256x49_0_0_0 : ∀ a, (![0, 0, 0] : Fin 3 → Nat) a + S128x256x49.size a ≤ S128x256x49.size a
  h_S128x256x49 : 0 < S128x256x49.numel
  shapeCasts_S128x256x49_S128x256x49 : S128x256x49.ShapeCasts S128x256x49
  reduces_S128x256x49_S128x256 : S128x256x49.Reduces [2] S128x256
  inb_S80x256_S80x256_0_0 : ∀ a, (![0, 0] : Fin 2 → Nat) a + S80x256.size a ≤ S80x256.size a
  h_S80x256 : 0 < S80x256.numel
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S128x80 : S1x80.Broadcasts S128x80
  inb_S320x256_S320x256_0_0 : ∀ a, (![0, 0] : Fin 2 → Nat) a + S320x256.size a ≤ S320x256.size a
  h_S320x256 : 0 < S320x256.numel
  inb_S1x320_S1x320_0_0 : ∀ a, (![0, 0] : Fin 2 → Nat) a + S1x320.size a ≤ S1x320.size a
  h_S1x320 : 0 < S1x320.numel
  shapeCasts_S1x320_S1x320 : S1x320.ShapeCasts S1x320
  broadcasts_S1x320_S128x320 : S1x320.Broadcasts S128x320
  inb_S128x80_S128x80_0_0 : ∀ a, (![0, 0] : Fin 2 → Nat) a + S128x80.size a ≤ S128x80.size a
  h_S128x80 : 0 < S128x80.numel
  inb_S128x320_S128x320_0_0 : ∀ a, (![0, 0] : Fin 2 → Nat) a + S128x320.size a ≤ S128x320.size a
  h_S128x320 : 0 < S128x320.numel
  dot_S128x256_S80x256_S128x80_1_1_0_0_n_n_wf : DotDims.WF S128x256 S80x256 S128x80 [1] [1] [0] [0] [] []
  dot_S128x256_S320x256_S128x320_1_1_0_0_n_n_wf : DotDims.WF S128x256 S320x256 S128x320 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256x49.size a ≤ S1024x256x49.size a
  hwx0_0 : ∀ i : grid0.Coords, EltTy.bits .f32 = 32 ∨ (Rect.block (s := S1024x256x49) S128x256x49.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S80x256.size a ≤ S80x256.size a
  hwx0_1 : ∀ i : grid0.Coords, EltTy.bits .f32 = 32 ∨ (Rect.block (s := S80x256) S80x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x80.size a ≤ S1x80.size a
  hwx0_2 : ∀ i : grid0.Coords, EltTy.bits .f32 = 32 ∨ (Rect.block (s := S1x80) S1x80.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x256.size a ≤ S320x256.size a
  hwx0_3 : ∀ i : grid0.Coords, EltTy.bits .f32 = 32 ∨ (Rect.block (s := S320x256) S320x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x320.size a ≤ S1x320.size a
  hwx0_4 : ∀ i : grid0.Coords, EltTy.bits .f32 = 32 ∨ (Rect.block (s := S1x320) S1x320.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x80.size a ≤ S1024x80.size a
  hwx0_5 : ∀ i : grid0.Coords, EltTy.bits .f32 = 32 ∨ (Rect.block (s := S1024x80) S128x80.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x320.size a ≤ S1024x320.size a
  hwx0_6 : ∀ i : grid0.Coords, EltTy.bits .f32 = 32 ∨ (Rect.block (s := S1024x320) S128x320.size (cc0_transform_6 i) (hinb0_6 i)).WholeWords (EltTy.packing .f32)

variable [Facts₀]

def dot_S128x256_S80x256_S128x80_1_1_0_0_n_n : DotDims S128x256 S80x256 S128x80 where
  lhsContracting := [1]
  rhsContracting := [1]
  lhsNonContracting := [0]
  rhsNonContracting := [0]
  lhsBatch := []
  rhsBatch := []
  wf := dot_S128x256_S80x256_S128x80_1_1_0_0_n_n_wf
def dot_S128x256_S320x256_S128x320_1_1_0_0_n_n : DotDims S128x256 S320x256 S128x320 where
  lhsContracting := [1]
  rhsContracting := [1]
  lhsNonContracting := [0]
  rhsNonContracting := [0]
  lhsBatch := []
  rhsBatch := []
  wf := dot_S128x256_S320x256_S128x320_1_1_0_0_n_n_wf

abbrev win0_0 : Pipeline.Window sig grid0 :=
  Pipeline.Window.ofSpec (Memref.whole main_v2) S128x256x49.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S80x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x80.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S320x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x320.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S128x80.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S128x320.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== Proof.KernelPayload.lean ====
/-
  The idealized kernel's body, read at one entry of its block.

  At a grid point the body holds a [49, 128, 256] slab of activations `x` (spatial position, row of the tile, channel),
  the stacked weights `w` : [400, 256] and the stacked biases `b` : [400, 1]. It sums the slab over its 49 spatial
  positions, scales the sum by the literal `s` = f32(1/49), contracts the channels against every weight row and
  adds that row's bias. At output row `o` and tile row `r` this is

      (∑ c, w[o, c] · ((∑ h, x[h, r, c]) · s)) + b[o, 0],

  a sum of products on the extended reals: the matrix unit's product into a zero accumulator is the plain sum over
  the contracted axis, the lane reduction from its neutral accumulator is the plain sum over the reduced axis.
  The first 80 rows are the class scores' block, the remaining 320 rows the box deltas' block.
-/
import proofs.«181179_g2000607049309062_pallasbulk_253_23_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-- The pooling scale both programs multiply by: the f32 nearest to 1/49, read as the real it denotes. -/
abbrev scale : EReal := Ideal.ofBits .f32 0x3CA72F05#32

/-! ## The contraction's operand indices -/

/-- The weights are read at the output's row … -/
theorem lhs_0 (i : S400x128.Idx) (q : dot_S400x256_S128x256_S400x128_1_1_0_0_n_n.contr.Idx) :
    (dot_S400x256_S128x256_S400x128_1_1_0_0_n_n.lhsIdx i q 0).val = (i 0).val := by
  unfold DotDims.lhsIdx
  rw [dif_neg (show ¬(0 : Fin S400x256.rank) ∈ dot_S400x256_S128x256_S400x128_1_1_0_0_n_n.lhsBatch by decide),
    dif_pos (show (0 : Fin S400x256.rank) ∈ dot_S400x256_S128x256_S400x128_1_1_0_0_n_n.lhsNonContracting by decide)]
  rfl

/-- … and the contracted channel; -/
theorem lhs_1 (i : S400x128.Idx) (q : dot_S400x256_S128x256_S400x128_1_1_0_0_n_n.contr.Idx) :
    (dot_S400x256_S128x256_S400x128_1_1_0_0_n_n.lhsIdx i q 1).val = (q ⟨0, by decide⟩).val :=
  dot_S400x256_S128x256_S400x128_1_1_0_0_n_n.lhsIdx_val_of_single rfl i q

/-- the pooled activations at the output's column (a row of the tile) … -/
theorem rhs_0 (i : S400x128.Idx) (q : dot_S400x256_S128x256_S400x128_1_1_0_0_n_n.contr.Idx) :
    (dot_S400x256_S128x256_S400x128_1_1_0_0_n_n.rhsIdx i q 0).val = (i 1).val := by
  unfold DotDims.rhsIdx
  rw [dif_neg (show ¬(0 : Fin S128x256.rank) ∈ dot_S400x256_S128x256_S400x128_1_1_0_0_n_n.rhsBatch by decide),
    dif_pos (show (0 : Fin S128x256.rank) ∈ dot_S400x256_S128x256_S400x128_1_1_0_0_n_n.rhsNonContracting by decide)]
  rfl

/-- … and the same channel. -/
theorem rhs_1 (i : S400x128.Idx) (q : dot_S400x256_S128x256_S400x128_1_1_0_0_n_n.contr.Idx) :
    (dot_S400x256_S128x256_S400x128_1_1_0_0_n_n.rhsIdx i q 1).val = (q ⟨0, by decide⟩).val :=
  dot_S400x256_S128x256_S400x128_1_1_0_0_n_n.rhsIdx_val_of_single rfl i q

/-- The product of the weights with the transposed pooled tile, into zero: entry (o, r) is ∑ c, w[o, c] · p[r, c]. -/
theorem matmul_at (w : FVec Ideal S400x256 .f32) (p : FVec Ideal S128x256 .f32) (o : Fin 400) (r : Fin 128) :
    matmul dot_S400x256_S128x256_S400x128_1_1_0_0_n_n none w p (constant (F := Ideal) S400x128 .f32 0x00000000#32) (ix2 o r)
      = ∑ k : Fin 256, w (ix2 o k) * p (ix2 r k) := by
  simp only [matmul]
  rw [Ideal.matmul_constant_zero_apply,
    ← Equiv.sum_comp (contrEquiv1 dot_S400x256_S128x256_S400x128_1_1_0_0_n_n 256 rfl rfl).symm]
  refine Finset.sum_congr rfl fun k _ => ?_
  have hk := contrEquiv1_symm_val dot_S400x256_S128x256_S400x128_1_1_0_0_n_n 256 rfl rfl k
  have el : dot_S400x256_S128x256_S400x128_1_1_0_0_n_n.lhsIdx (ix2 o r)
      ((contrEquiv1 dot_S400x256_S128x256_S400x128_1_1_0_0_n_n 256 rfl rfl).symm k) = ix2 o k :=
    funext fun a => Fin.ext (by
      match a with
      | ⟨0, _⟩ => exact lhs_0 _ _
      | ⟨1, _⟩ => exact (lhs_1 _ _).trans hk)
  have er : dot_S400x256_S128x256_S400x128_1_1_0_0_n_n.rhsIdx (ix2 o r)
      ((contrEquiv1 dot_S400x256_S128x256_S400x128_1_1_0_0_n_n 256 rfl rfl).symm k) = ix2 r k :=
    funext fun a => Fin.ext (by
      match a with
      | ⟨0, _⟩ => exact rhs_0 _ _
      | ⟨1, _⟩ => exact (rhs_1 _ _).trans hk)
  rw [el, er]

/-- The slab summed over its spatial positions: entry (r, c) is ∑ h, x[h, r, c]. -/
theorem slabsum_at (x : FVec Ideal S49x128x256 .f32) (hacc : (0x00000000#32 : BitVec 32) = 0x00000000#32)
    (r : Fin 128) (c : Fin 256) :
    multiReduction .add [0] S128x256 x 0x00000000#32 reduces_S49x128x256_S128x256 (.inl rfl) hacc (ix2 r c)
      = ∑ h : Fin 49, x (ix3 h r c) := by
  refine (Ideal.multiReduction_add_single x 0x00000000#32 reduces_S49x128x256_S128x256 (.inl rfl) hacc (ix2 r c)).trans ?_
  refine Finset.sum_congr rfl fun h _ => congrArg x ?_
  funext a
  apply Fin.ext
  match a with
  | ⟨0, _⟩ => rfl
  | ⟨1, _⟩ => rfl
  | ⟨2, _⟩ => rfl

/-- A column [400, 1] spread over the 128 tile rows reads its one entry of the row. -/
theorem column_at (b : FVec Ideal S400x1 .f32) (o : Fin 400) (r : Fin 128) :
    broadcastTo S400x128 b broadcasts_S400x1_S400x128 (ix2 o r) = b (ix2 o (0 : Fin 1)) := by
  refine broadcastTo_apply b broadcasts_S400x1_S400x128 (ix2 o r) (ix2 o (0 : Fin 1)) fun ax => ?_
  match ax with
  | ⟨0, _⟩ => rfl
  | ⟨1, _⟩ => rfl

/-- THE BODY'S VALUE at output row `o` and tile row `r`. -/
theorem pay1_at (x : Vec Ideal S49x128x256 .f32) (w : Vec Ideal S400x256 .f32) (b : Vec Ideal S400x1 .f32)
    (o : Fin 400) (r : Fin 128) :
    k0_pay1 (F := Ideal) x w b (ix2 o r)
      = (∑ c : Fin 256, w (ix2 o c) * ((∑ h : Fin 49, x (ix3 h r c)) * scale)) + b (ix2 o (0 : Fin 1)) := by
  unfold k0_pay1
  refine (addf_apply _ _ _).trans ?_
  refine congrArg₂ (· + ·) ?_ ?_
  · refine (matmul_at _ _ o r).trans ?_
    refine Finset.sum_congr rfl fun c _ => ?_
    rw [shapeCast_self]
    refine congrArg (w (ix2 o c) * ·) ?_
    refine (mulf_apply _ _ _).trans ?_
    rw [shapeCast_self]
    exact congrArg (· * scale) (slabsum_at x rfl r c)
  · rw [shapeCast_self]
    exact column_at b o r

/-- The class scores' block is the first 80 rows … -/
theorem pay2_at (x : Vec Ideal S49x128x256 .f32) (w : Vec Ideal S400x256 .f32) (b : Vec Ideal S400x1 .f32)
    (o : Fin 80) (r : Fin 128) :
    k0_pay2 (F := Ideal) x w b (ix2 o r) = k0_pay1 (F := Ideal) x w b (ix2 (⟨o.val, by omega⟩ : Fin 400) r) := by
  unfold k0_pay2
  refine extractStridedSlice_apply _ _ _ _ _ fun a => ?_
  match a with
  | ⟨0, _⟩ => show o.val = 0 + o.val; omega
  | ⟨1, _⟩ => show r.val = 0 + r.val; omega

/-- … and the box deltas' block the 320 rows after them. -/
theorem pay3_at (x : Vec Ideal S49x128x256 .f32) (w : Vec Ideal S400x256 .f32) (b : Vec Ideal S400x1 .f32)
    (o : Fin 320) (r : Fin 128) :
    k0_pay3 (F := Ideal) x w b (ix2 o r) = k0_pay1 (F := Ideal) x w b (ix2 (⟨80 + o.val, by omega⟩ : Fin 400) r) := by
  unfold k0_pay3
  refine extractStridedSlice_apply _ _ _ _ _ fun a => ?_
  match a with
  | ⟨0, _⟩ => show 80 + o.val = 80 + o.val; rfl
  | ⟨1, _⟩ => show r.val = 0 + r.val; omega

end Cert.KernelIdeal.Payload

end
-- ==== Proof.StackedOperand.lean ====
/-
  The kernel's one resident operand: both heads' weights stacked row-wise, [w_cls; w_pred] : [400, 256], with both
  biases stacked the same way and appended as column 256, giving [400, 257]. Reading it back:

      rows 0 … 79,  column c < 256 : w_cls[o, c]          rows 0 … 79,  column 256 : b_cls[o]
      rows 80 … 399, column c < 256 : w_pred[o - 80, c]   rows 80 … 399, column 256 : b_pred[o - 80].
-/
import Idealize.ShloMosaic.PureOps.Ideal
import Idealize.ShloMosaic.Lib.ValueIdx
import Idealize.ShloMosaic.Lib.Pipeline.Value

noncomputable section

namespace Cert.Stacked

open Idealize.ShloMosaic Idealize.ShloMosaic.ValueIdx

variable {α : Type}
variable (wc : (⟨2, ![80, 256]⟩ : Shape).Idx → α) (wp : (⟨2, ![320, 256]⟩ : Shape).Idx → α)
variable (bc : (⟨1, ![80]⟩ : Shape).Idx → α) (bp : (⟨1, ![320]⟩ : Shape).Idx → α)
variable (hw : Shape.Concatenates [(⟨2, ![80, 256]⟩ : Shape), ⟨2, ![320, 256]⟩] ⟨2, ![400, 256]⟩ 0)
variable (hb : Shape.Concatenates [(⟨1, ![80]⟩ : Shape), ⟨1, ![320]⟩] ⟨1, ![400]⟩ 0)
variable (hc : (⟨1, ![400]⟩ : Shape).BroadcastsInDim ⟨2, ![400, 1]⟩ (![0] : Fin 1 → Fin (⟨2, ![400, 1]⟩ : Shape).rank))
variable (hwb : Shape.Concatenates [(⟨2, ![400, 256]⟩ : Shape), ⟨2, ![400, 1]⟩] ⟨2, ![400, 257]⟩ 1)

/-- The stacked weights [400, 256]. -/
abbrev weights : (⟨2, ![400, 256]⟩ : Shape).Idx → α :=
  concatenate ⟨2, ![400, 256]⟩ 0 [⟨⟨2, ![80, 256]⟩, wc⟩, ⟨⟨2, ![320, 256]⟩, wp⟩] hw

/-- The stacked biases [400]. -/
abbrev biases : (⟨1, ![400]⟩ : Shape).Idx → α :=
  concatenate ⟨1, ![400]⟩ 0 [⟨⟨1, ![80]⟩, bc⟩, ⟨⟨1, ![320]⟩, bp⟩] hb

/-- The resident operand [400, 257]: the stacked weights with the stacked biases as a last column. -/
abbrev operand : (⟨2, ![400, 257]⟩ : Shape).Idx → α :=
  concatenate ⟨2, ![400, 257]⟩ 1 [⟨⟨2, ![400, 256]⟩, weights wc wp hw⟩,
    ⟨⟨2, ![400, 1]⟩, broadcastInDim ⟨2, ![400, 1]⟩ ![0] hc (biases bc bp hb)⟩] hwb

/-- A weight column of the operand is a column of the stacked weights. -/
theorem operand_weight (o : Fin 400) (c : Fin 256) :
    operand wc wp bc bp hw hb hc hwb (ix2 o (⟨c.val, by omega⟩ : Fin 257)) = weights wc wp hw (ix2 o c) := by
  refine concatenate_pair_apply_left _ _ _ hwb _ rfl (ix2 o c) fun b => ?_
  match b with
  | ⟨0, _⟩ => rfl
  | ⟨1, _⟩ => rfl

/-- The last column of the operand is the stacked biases. -/
theorem operand_bias (o : Fin 400) :
    operand wc wp bc bp hw hb hc hwb (ix2 o (⟨256, by omega⟩ : Fin 257)) = biases bc bp hb (ix1 o) := by
  refine (concatenate_pair_apply_right _ _ _ hwb _ rfl rfl (ix2 o (0 : Fin 1)) (fun b hne => ?_) ?_).trans ?_
  · match b with
    | ⟨0, _⟩ => rfl
    | ⟨1, _⟩ => exact absurd rfl hne
  · rfl
  · refine broadcastInDim_apply _ hc _ _ (ix1 o) fun a => ?_
    match a with
    | ⟨0, _⟩ => rfl

/-- The first 80 rows of the stacked weights are the class weights; -/
theorem weights_lo (o : Fin 80) (c : Fin 256) :
    weights wc wp hw (ix2 (⟨o.val, by omega⟩ : Fin 400) c) = wc (ix2 o c) := by
  refine concatenate_pair_apply_left _ _ _ hw _ rfl (ix2 o c) fun b => ?_
  match b with
  | ⟨0, _⟩ => rfl
  | ⟨1, _⟩ => rfl

/-- the 320 rows after them the delta weights. -/
theorem weights_hi (o : Fin 320) (c : Fin 256) :
    weights wc wp hw (ix2 (⟨80 + o.val, by omega⟩ : Fin 400) c) = wp (ix2 o c) := by
  refine concatenate_pair_apply_right _ _ _ hw _ rfl rfl (ix2 o c) (fun b hne => ?_) ?_
  · match b with
    | ⟨0, _⟩ => exact absurd rfl hne
    | ⟨1, _⟩ => rfl
  · show o.val + 80 = 80 + o.val
    omega

/-- The first 80 stacked biases are the class biases; -/
theorem biases_lo (o : Fin 80) : biases bc bp hb (ix1 (⟨o.val, by omega⟩ : Fin 400)) = bc (ix1 o) := by
  refine concatenate_pair_apply_left _ _ _ hb _ rfl (ix1 o) fun b => ?_
  match b with
  | ⟨0, _⟩ => rfl

/-- the 320 after them the delta biases. -/
theorem biases_hi (o : Fin 320) : biases bc bp hb (ix1 (⟨80 + o.val, by omega⟩ : Fin 400)) = bp (ix1 o) := by
  refine concatenate_pair_apply_right _ _ _ hb _ rfl rfl (ix1 o) (fun b hne => ?_) ?_
  · match b with
    | ⟨0, _⟩ => exact absurd rfl hne
  · show o.val + 80 = 80 + o.val
    omega

end Cert.Stacked

end
-- ==== Proof.Spec.lean ====
/-
  What both programs compute, index by index, on the extended reals.

  The activations `x` : [1024, 256, 7, 7] (sample, channel, two spatial axes) are averaged over their 49 spatial
  positions — the sum scaled by the literal `s` = f32(1/49), the same word in both programs — and each of two
  linear heads contracts the 256 channels against its weight rows and adds its bias:

      pooled[n, c] = (∑ h, x[n, c, h]) · s          (h runs over the flattened spatial positions)
      head[n, o]   = (∑ c, pooled[n, c] · w[o, c]) + b[o].

  Only commutativity of the product and a zero summand separate the two programs' spellings of this value, so nothing
  here needs the inputs to be finite.
-/
import Idealize.ShloMosaic.PureOps.Ideal
import Idealize.ShloMosaic.Lib.ValueIdx
import Idealize.ShloMosaic.Lib.ValueLayout
import Idealize.ShloMosaic.Lib.Pipeline.Value

noncomputable section

namespace Cert.Spec

open Idealize.ShloMosaic Idealize.ShloMosaic.ValueIdx

/-- The pooling scale: the f32 nearest to 1/49, read as the real it denotes. -/
abbrev scale : EReal := Ideal.ofBits .f32 0x3CA72F05#32

/-- The activations with their two spatial axes flattened to one of 49 positions. -/
abbrev Flat : Type := FVec Ideal ⟨3, ![1024, 256, 49]⟩ .f32

/-- The spatial mean of sample `n`, channel `c`. -/
def pooled (x : Flat) (n : Fin 1024) (c : Fin 256) : EReal :=
  (∑ h : Fin 49, x (ix3 n c h)) * scale

/-- One linear head at sample `n`, output `o`. -/
def headAt {O : Nat} (x : Flat) (w : Fin O → Fin 256 → EReal) (b : Fin O → EReal) (n : Fin 1024) (o : Fin O) : EReal :=
  (∑ c : Fin 256, pooled x n c * w o c) + b o

/-- The class scores [1024, 80]. -/
def scores (x : Flat) (w : FVec Ideal ⟨2, ![80, 256]⟩ .f32) (b : FVec Ideal ⟨1, ![80]⟩ .f32) :
    FVec Ideal ⟨2, ![1024, 80]⟩ .f32 :=
  fun j => headAt x (fun o c => w (ix2 o c)) (fun o => b (ix1 o)) (j 0) (j 1)

/-- The box deltas [1024, 320]. -/
def deltas (x : Flat) (w : FVec Ideal ⟨2, ![320, 256]⟩ .f32) (b : FVec Ideal ⟨1, ![320]⟩ .f32) :
    FVec Ideal ⟨2, ![1024, 320]⟩ .f32 :=
  fun j => headAt x (fun o c => w (ix2 o c)) (fun o => b (ix1 o)) (j 0) (j 1)

/-- The class scores laid out output-major, [80, 1024]: what a kernel that computes the transposed heads stores. -/
def scoresT (x : Flat) (w : FVec Ideal ⟨2, ![80, 256]⟩ .f32) (b : FVec Ideal ⟨1, ![80]⟩ .f32) :
    FVec Ideal ⟨2, ![80, 1024]⟩ .f32 :=
  fun i => headAt x (fun o c => w (ix2 o c)) (fun o => b (ix1 o)) (i 1) (i 0)

/-- The box deltas laid out output-major, [320, 1024]. -/
def deltasT (x : Flat) (w : FVec Ideal ⟨2, ![320, 256]⟩ .f32) (b : FVec Ideal ⟨1, ![320]⟩ .f32) :
    FVec Ideal ⟨2, ![320, 1024]⟩ .f32 :=
  fun i => headAt x (fun o c => w (ix2 o c)) (fun o => b (ix1 o)) (i 1) (i 0)

/-- Transposing the output-major scores gives the scores. -/
theorem transpose_scoresT (x : Flat) (w : FVec Ideal ⟨2, ![80, 256]⟩ .f32) (b : FVec Ideal ⟨1, ![80]⟩ .f32)
    (h : (⟨2, ![80, 1024]⟩ : Shape).Transposes [1, 0] ⟨2, ![1024, 80]⟩) :
    transpose ⟨2, ![1024, 80]⟩ [1, 0] (scoresT x w b) h = scores x w b := by
  funext j
  rw [eq_ix2 j]
  exact transpose_ix2_apply (scoresT x w b) h (j 0) (j 1)

/-- Transposing the output-major deltas gives the deltas. -/
theorem transpose_deltasT (x : Flat) (w : FVec Ideal ⟨2, ![320, 256]⟩ .f32) (b : FVec Ideal ⟨1, ![320]⟩ .f32)
    (h : (⟨2, ![320, 1024]⟩ : Shape).Transposes [1, 0] ⟨2, ![1024, 320]⟩) :
    transpose ⟨2, ![1024, 320]⟩ [1, 0] (deltasT x w b) h = deltas x w b := by
  funext j
  rw [eq_ix2 j]
  exact transpose_ix2_apply (deltasT x w b) h (j 0) (j 1)

/-- A kernel that multiplies weight by pooled value, in that order, computes the same head. -/
theorem headAt_comm {O : Nat} (x : Flat) (w : Fin O → Fin 256 → EReal) (b : Fin O → EReal) (n : Fin 1024) (o : Fin O) :
    (∑ c : Fin 256, w o c * pooled x n c) + b o = headAt x w b n o := by
  unfold headAt
  exact congrArg (· + b o) (Finset.sum_congr rfl fun c _ => mul_comm _ _)

/-! ## The flattened activations, and their spatial-major rearrangement -/

/-- Flattening the spatial axes keeps the row-major order: position `h` is (h / 7, h % 7). -/
theorem flat_at (x : FVec Ideal ⟨4, ![1024, 256, 7, 7]⟩ .f32)
    (h : (⟨4, ![1024, 256, 7, 7]⟩ : Shape).ShapeCasts ⟨3, ![1024, 256, 49]⟩) (n : Fin 1024) (c : Fin 256) (p : Fin 49) :
    shapeCast ⟨3, ![1024, 256, 49]⟩ x h (ix3 n c p)
      = x (ix4 n c (⟨p.val / 7, by omega⟩ : Fin 7) (⟨p.val % 7, by omega⟩ : Fin 7)) := by
  refine shapeCast_apply x h _ _ ?_
  rw [Shape.rowMajor_val_four, Shape.rowMajor_val_three]
  show ((n.val * 256 + c.val) * 7 + p.val / 7) * 7 + p.val % 7 = (n.val * 256 + c.val) * 49 + p.val
  omega

/-- Moving the spatial axes in front and flattening them reads the same entry: [h, n, c] of the spatial-major array is
    [n, c, h] of the flattened one. -/
theorem spatialMajor_at (x : FVec Ideal ⟨4, ![1024, 256, 7, 7]⟩ .f32)
    (ht : (⟨4, ![1024, 256, 7, 7]⟩ : Shape).Transposes [2, 3, 0, 1] ⟨4, ![7, 7, 1024, 256]⟩)
    (hs : (⟨4, ![7, 7, 1024, 256]⟩ : Shape).ShapeCasts ⟨3, ![49, 1024, 256]⟩)
    (hf : (⟨4, ![1024, 256, 7, 7]⟩ : Shape).ShapeCasts ⟨3, ![1024, 256, 49]⟩) (p : Fin 49) (n : Fin 1024) (c : Fin 256) :
    shapeCast ⟨3, ![49, 1024, 256]⟩ (transpose ⟨4, ![7, 7, 1024, 256]⟩ [2, 3, 0, 1] x ht) hs (ix3 p n c)
      = shapeCast ⟨3, ![1024, 256, 49]⟩ x hf (ix3 n c p) := by
  rw [flat_at]
  refine (shapeCast_apply _ hs (ix3 p n c) (ix4 (⟨p.val / 7, by omega⟩ : Fin 7) (⟨p.val % 7, by omega⟩ : Fin 7) n c) ?_).trans ?_
  · rw [Shape.rowMajor_val_four, Shape.rowMajor_val_three]
    show ((p.val / 7 * 7 + p.val % 7) * 1024 + n.val) * 256 + c.val = (p.val * 1024 + n.val) * 256 + c.val
    omega
  · refine transpose_apply _ x ht _ _ fun b => ?_
    match b with
    | ⟨0, _⟩ => rfl
    | ⟨1, _⟩ => rfl
    | ⟨2, _⟩ => rfl
    | ⟨3, _⟩ => rfl

end Cert.Spec

end
-- ==== Proof.KernelValue.lean ====
/-
  The idealized kernel's two result arrays, as functions of its arguments.

  Before its one kernel region the kernel moves the activations' spatial axes in front and flattens them (a [49, 1024,
  256] array: spatial position, sample, channel) and builds the one resident operand [400, 257]: both heads' weights
  stacked, the stacked biases as column 256. The grid has one point per tile of 128 samples. Point `t` reads samples
  128 t … 128 t + 127 at every position and channel and the whole operand, and writes back columns 128 t … of the two
  output-major results [80, 1024] and [320, 1024]: at (o, r) the head of sample 128 t + r, the weight times the pooled
  value in that order. The eight column tiles cover each array; after the region each is transposed into its result.
-/
import proofs.«181179_g2000607049309062_pallasbulk_253_23_alg».proof.Proof.Gen.KernelIdeal.Frame
import proofs.«181179_g2000607049309062_pallasbulk_253_23_alg».proof.Proof.KernelPayload
import proofs.«181179_g2000607049309062_pallasbulk_253_23_alg».proof.Proof.StackedOperand
import proofs.«181179_g2000607049309062_pallasbulk_253_23_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KerValue

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Flattening the two spatial axes of the activations is a reshape. -/
theorem flatCasts : S1024x256x7x7.ShapeCasts (⟨3, ![1024, 256, 49]⟩ : Shape) := by decide

/-- The activations with their spatial axes flattened: what the heads are stated over. -/
abbrev xflat (c : Dev nD) : Spec.Flat := shapeCast ⟨3, ![1024, 256, 49]⟩ (m ((c : Thread nD τ).loc main_arg0)) flatCasts

/-! ## The arrays the region finds -/

/-- The spatial-major activations, as the region finds them. -/
abbrev xsm (c : Dev nD) : Vec Ideal S49x1024x256 .f32 := V m c main_v1

/-- The resident operand, as the region finds it. -/
abbrev opnd (c : Dev nD) : Vec Ideal S400x257 .f32 := V m c main_v5

theorem xsm_eq (c : Dev nD) :
    xsm m c = shapeCast S49x1024x256 (transpose S7x7x1024x256 [2, 3, 0, 1] (m ((c : Thread nD τ).loc main_arg0))
      transposes_S1024x256x7x7_S7x7x1024x256_2_3_0_1) shapeCasts_S7x7x1024x256_S49x1024x256 := by
  show StableHlo.after hostOps0 (fun b => m (c, b)) (Proc.devRef .tc main_v1) = _
  after_results
  rfl

theorem opnd_eq (c : Dev nD) :
    opnd m c = Stacked.operand (m ((c : Thread nD τ).loc main_arg1)) (m ((c : Thread nD τ).loc main_arg3))
      (m ((c : Thread nD τ).loc main_arg2)) (m ((c : Thread nD τ).loc main_arg4))
      concatenates_S80x256_S320x256_S400x256_d0 concatenates_S80_S320_S400_d0 bcast_S400_S400x1_0
      concatenates_S400x256_S400x1_S400x257_d1 := by
  show StableHlo.after hostOps0 (fun b => m (c, b)) (Proc.devRef .tc main_v5) = _
  after_results

/-! ## The input windows' blocks -/

/-- The slab of activations point `t` reads. -/
abbrev xblk (c : Dev nD) (t : Fin cfg0.N) : Vec Ideal S49x128x256 .f32 := iblk m c 0 t

/-- The operand point `t` reads. -/
abbrev oblk (c : Dev nD) (t : Fin cfg0.N) : Vec Ideal S400x257 .f32 := iblk m c 1 t

/-- The activations' block index at point `t`: all positions, sample tile `t`, all channels. -/
theorem idx0 : ∀ t : Fin cfg0.N, win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0)

theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Row `r` of the slab is sample 128 t + r: entry [h, r, ch] is the flattened activations at [128 t + r, ch, h]. -/
theorem xblk_at (c : Dev nD) (t : Fin cfg0.N) (h : Fin 49) (r : Fin 128) (ch : Fin 256) :
    xblk m c t (ix3 h r ch)
      = xflat m c (ix3 (⟨128 * t.val + r.val, by have hN : cfg0.N = 8 := N_0; have := t.isLt; omega⟩ : Fin 1024) ch h) := by
  obtain ⟨e0, e1, e2⟩ := idx0 t
  have hN : cfg0.N = 8 := N_0
  have ht : t.val < 8 := by have := t.isLt; omega
  have hb : xblk m c t (ix3 h r ch) = xsm m c (ix3 h (⟨128 * t.val + r.val, by omega⟩ : Fin 1024) ch) := by
    show V m c main_v1 (((cfg0.win 0).blk t).view.emb (ix3 h r ch)) = V m c main_v1 _
    refine congrArg (V m c main_v1) (funext fun a => Fin.ext ?_)
    match a with
    | ⟨0, _⟩ => show win0_0.index t (0 : Fin 3) * 49 + 1 * h.val = h.val; rw [e0]; omega
    | ⟨1, _⟩ => show win0_0.index t (1 : Fin 3) * 128 + 1 * r.val = 128 * t.val + r.val; rw [e1]; omega
    | ⟨2, _⟩ => show win0_0.index t (2 : Fin 3) * 256 + 1 * ch.val = ch.val; rw [e2]; omega
  exact hb.trans ((congrFun (xsm_eq m c) _).trans (Spec.spatialMajor_at _ _ _ flatCasts h _ ch))

/-- The operand's one block is the whole operand. -/
theorem oblk_at (c : Dev nD) (t : Fin cfg0.N) (a : Fin 400) (b : Fin 257) :
    oblk m c t (ix2 a b) = opnd m c (ix2 a b) := by
  obtain ⟨e0, e1⟩ := idx1 t
  show V m c main_v5 (((cfg0.win 1).blk t).view.emb (ix2 a b)) = V m c main_v5 (ix2 a b)
  refine congrArg (V m c main_v5) (funext fun ax => Fin.ext ?_)
  match ax with
  | ⟨0, _⟩ => show win0_1.index t (0 : Fin 2) * 400 + 1 * a.val = a.val; rw [e0]; omega
  | ⟨1, _⟩ => show win0_1.index t (1 : Fin 2) * 257 + 1 * b.val = b.val; rw [e1]; omega

/-- The body's load of the weight columns of the operand. -/
theorem ld_weights (x1 : Vec Ideal S400x257 .f32) (o : Fin 400) (ch : Fin 256) :
    View.ld x1 r0_1 (ix2 o ch) = x1 (ix2 o (⟨ch.val, by omega⟩ : Fin 257)) := by
  show x1 (r0_1.idx (ix2 o ch)) = _
  refine congrArg x1 (funext fun a => Fin.ext ?_)
  match a with
  | ⟨0, _⟩ => show 0 + 1 * o.val = o.val; omega
  | ⟨1, _⟩ => show 0 + 1 * ch.val = ch.val; omega

/-- The body's load of the bias column of the operand. -/
theorem ld_bias (x1 : Vec Ideal S400x257 .f32) (o : Fin 400) :
    View.ld x1 r0_2 (ix2 o (0 : Fin 1)) = x1 (ix2 o (⟨256, by omega⟩ : Fin 257)) := by
  show x1 (r0_2.idx (ix2 o (0 : Fin 1))) = _
  refine congrArg x1 (funext fun a => Fin.ext ?_)
  match a with
  | ⟨0, _⟩ => show 0 + 1 * o.val = o.val; omega
  | ⟨1, _⟩ => show 256 + 1 * 0 = 256; rfl

/-! ## The class scores (output window 2) -/

/-- The block index of output window 2 at point `t`: all its rows, column tile `t`. -/
theorem idx2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)

/-- WHAT POINT `t` WRITES BACK is block `t` of the output-major class scores of the arguments. -/
theorem flushed2_eq (c : Dev nD) (t : Fin cfg0.N) :
    (dats m 0 c).flushed 2 t = ((cfg0.win 2).blk t).view.read (Elt Ideal)
      (Spec.scoresT (xflat m c) (m ((c : Thread nD τ).loc main_arg1)) (m ((c : Thread nD τ).loc main_arg2))) := by
  have hN : cfg0.N = 8 := N_0
  have ht : t.val < 8 := by have := t.isLt; omega
  show (cfg0.win 2).cut (grid0.coords t) ((dats m 0 c).after 2 t) = _
  rw [after0_2]
  unfold out0_2
  rw [View.canon_unit_zero (S := S80x128) hz2]
  simp only [View.ld_unit_zero (S := S49x128x256) hz3]
  funext j
  obtain ⟨o, r, rfl⟩ : ∃ (o : Fin 80) (r : Fin 128), j = ix2 o r := ⟨j 0, j 1, eq_ix2 j⟩
  obtain ⟨e0, e1⟩ := idx2 t
  have hi : ((cfg0.win 2).blk t).view.emb (ix2 o r) = ix2 o (⟨128 * t.val + r.val, by omega⟩ : Fin 1024) :=
    funext fun a => Fin.ext (by
      match a with
      | ⟨0, _⟩ => show win0_2.index t (0 : Fin 2) * 80 + 1 * o.val = o.val; rw [e0]; omega
      | ⟨1, _⟩ => show win0_2.index t (1 : Fin 2) * 128 + 1 * r.val = 128 * t.val + r.val; rw [e1]; omega)
  show k0_pay2 (F := Ideal) (xblk m c t) (View.ld (oblk m c t) r0_1) (View.ld (oblk m c t) r0_2) (ix2 o r)
    = Spec.scoresT (xflat m c) (m ((c : Thread nD τ).loc main_arg1)) (m ((c : Thread nD τ).loc main_arg2))
        (((cfg0.win 2).blk t).view.emb (ix2 o r))
  rw [hi]
  refine (Payload.pay2_at _ _ _ o r).trans ?_
  refine (Payload.pay1_at _ _ _ _ r).trans ?_
  show _ = Spec.headAt (xflat m c) (fun o ch => m ((c : Thread nD τ).loc main_arg1) (ix2 o ch))
    (fun o => m ((c : Thread nD τ).loc main_arg2) (ix1 o)) (⟨128 * t.val + r.val, by omega⟩ : Fin 1024) o
  refine Eq.trans ?_ (Spec.headAt_comm (xflat m c) _ _ _ o)
  unfold Spec.pooled
  refine congrArg₂ (· + ·) (Finset.sum_congr rfl fun ch _ => congrArg₂ (· * ·) ?_
    (congrArg (· * Spec.scale) (Finset.sum_congr rfl fun h _ => xblk_at m c t h r ch))) ?_
  · exact (ld_weights _ _ ch).trans ((oblk_at m c t _ _).trans ((congrFun (opnd_eq m c) _).trans
      ((Stacked.operand_weight _ _ _ _ _ _ _ _ _ ch).trans (Stacked.weights_lo _ _ _ o ch))))
  · exact (ld_bias _ _).trans ((oblk_at m c t _ _).trans ((congrFun (opnd_eq m c) _).trans
      ((Stacked.operand_bias _ _ _ _ _ _ _ _ _).trans (Stacked.biases_lo _ _ _ o))))

/-- An index of the array is in point `t`'s block iff each coordinate is in the block's range on its axis. -/
theorem mem_blk2 (t : Fin cfg0.N) (i : S80x1024.Idx) :
    i ∈ ((cfg0.win 2).blk t).view.set ↔ ∀ a : Fin 2, win0_2.index t a * S80x128.size a ≤ (i a).val
      ∧ (i a).val < win0_2.index t a * S80x128.size a + S80x128.size a := by
  show i ∈ ((View.whole main_v6_0).slice (win0_2.rect t)).set ↔ _
  rw [View.set_slice_whole, Rect.mem_set_unit]
  exact Iff.rfl

/-- Every column of the array lies in the block of the point that is its column tile's number. -/
theorem cover2 (i : S80x1024.Idx) :
    ∃ t : Fin cfg0.N, (cfg0.win 2).flush t = true ∧ i ∈ ((cfg0.win 2).blk t).view.set := by
  have hN : cfg0.N = 8 := N_0
  have hi0 : (i 0).val < 80 := (i 0).isLt
  have hi1 : (i 1).val < 1024 := (i 1).isLt
  refine ⟨⟨(i 1).val / 128, by omega⟩, flush0_2 _, ?_⟩
  rw [mem_blk2]
  obtain ⟨e0, e1⟩ := idx2 ⟨(i 1).val / 128, by omega⟩
  intro a
  match a with
  | ⟨0, _⟩ =>
    show win0_2.index ⟨(i 1).val / 128, _⟩ (0 : Fin 2) * 80 ≤ (i 0).val
      ∧ (i 0).val < win0_2.index ⟨(i 1).val / 128, _⟩ (0 : Fin 2) * 80 + 80
    rw [e0]; omega
  | ⟨1, _⟩ =>
    show win0_2.index ⟨(i 1).val / 128, _⟩ (1 : Fin 2) * 128 ≤ (i 1).val
      ∧ (i 1).val < win0_2.index ⟨(i 1).val / 128, _⟩ (1 : Fin 2) * 128 + 128
    rw [e1]; show (i 1).val / 128 * 128 ≤ (i 1).val ∧ (i 1).val < (i 1).val / 128 * 128 + 128; omega

/-- THE ARRAY after the region: the output-major class scores of the arguments. -/
theorem final2 (c : Dev nD) : (dats m 0 c).arrAt 2 cfg0.N
    = Spec.scoresT (xflat m c) (m ((c : Thread nD τ).loc main_arg1)) (m ((c : Thread nD τ).loc main_arg2)) :=
  (dats m 0 c).arrAt_eq_of_cover 2 _ (fun t _ => flushed2_eq m c t) cover2

/-- After the region the array is transposed into the result: the class scores of the arguments. -/
theorem result2 (c : Dev nD) :
    Pipeline.afterTail₀ cfgs (dats m) 0 (V0 m) [hostOps1] c main_v7
      = Spec.scores (xflat m c) (m ((c : Thread nD τ).loc main_arg1)) (m ((c : Thread nD τ).loc main_arg2)) := by
  unfold Pipeline.afterTail₀
  show StableHlo.after hostOps1 _ (Proc.devRef .tc main_v7) = _
  after_results
  refine Eq.trans ?_ (Spec.transpose_scoresT _ _ _ transposes_S80x1024_S1024x80_1_0)
  exact congrArg (fun A => transpose S1024x80 [1, 0] A transposes_S80x1024_S1024x80_1_0)
    ((Pipeline.withArrays_arr spec0 launch0.win.arr_inj c _ _ 2).trans (final2 m c))

/-! ## The box deltas (output window 3) -/

/-- The block index of output window 3 at point `t`: all its rows, column tile `t`. -/
theorem idx3 : ∀ t : Fin cfg0.N, win0_3.index t (0 : Fin 2) = 0 ∧ win0_3.index t (1 : Fin 2) = t.val :=
  (by decide +kernel : ∀ t : Fin grid0.N, win0_3.index t (0 : Fin 2) = 0 ∧ win0_3.index t (1 : Fin 2) = t.val)

/-- WHAT POINT `t` WRITES BACK is block `t` of the output-major box deltas of the arguments. -/
theorem flushed3_eq (c : Dev nD) (t : Fin cfg0.N) :
    (dats m 0 c).flushed 3 t = ((cfg0.win 3).blk t).view.read (Elt Ideal)
      (Spec.deltasT (xflat m c) (m ((c : Thread nD τ).loc main_arg3)) (m ((c : Thread nD τ).loc main_arg4))) := by
  have hN : cfg0.N = 8 := N_0
  have ht : t.val < 8 := by have := t.isLt; omega
  show (cfg0.win 3).cut (grid0.coords t) ((dats m 0 c).after 3 t) = _
  rw [after0_3]
  unfold out0_3
  rw [View.canon_unit_zero (S := S320x128) hz2]
  simp only [View.ld_unit_zero (S := S49x128x256) hz3]
  funext j
  obtain ⟨o, r, rfl⟩ : ∃ (o : Fin 320) (r : Fin 128), j = ix2 o r := ⟨j 0, j 1, eq_ix2 j⟩
  obtain ⟨e0, e1⟩ := idx3 t
  have hi : ((cfg0.win 3).blk t).view.emb (ix2 o r) = ix2 o (⟨128 * t.val + r.val, by omega⟩ : Fin 1024) :=
    funext fun a => Fin.ext (by
      match a with
      | ⟨0, _⟩ => show win0_3.index t (0 : Fin 2) * 320 + 1 * o.val = o.val; rw [e0]; omega
      | ⟨1, _⟩ => show win0_3.index t (1 : Fin 2) * 128 + 1 * r.val = 128 * t.val + r.val; rw [e1]; omega)
  show k0_pay3 (F := Ideal) (xblk m c t) (View.ld (oblk m c t) r0_1) (View.ld (oblk m c t) r0_2) (ix2 o r)
    = Spec.deltasT (xflat m c) (m ((c : Thread nD τ).loc main_arg3)) (m ((c : Thread nD τ).loc main_arg4))
        (((cfg0.win 3).blk t).view.emb (ix2 o r))
  rw [hi]
  refine (Payload.pay3_at _ _ _ o r).trans ?_
  refine (Payload.pay1_at _ _ _ _ r).trans ?_
  show _ = Spec.headAt (xflat m c) (fun o ch => m ((c : Thread nD τ).loc main_arg3) (ix2 o ch))
    (fun o => m ((c : Thread nD τ).loc main_arg4) (ix1 o)) (⟨128 * t.val + r.val, by omega⟩ : Fin 1024) o
  refine Eq.trans ?_ (Spec.headAt_comm (xflat m c) _ _ _ o)
  unfold Spec.pooled
  refine congrArg₂ (· + ·) (Finset.sum_congr rfl fun ch _ => congrArg₂ (· * ·) ?_
    (congrArg (· * Spec.scale) (Finset.sum_congr rfl fun h _ => xblk_at m c t h r ch))) ?_
  · exact (ld_weights _ _ ch).trans ((oblk_at m c t _ _).trans ((congrFun (opnd_eq m c) _).trans
      ((Stacked.operand_weight _ _ _ _ _ _ _ _ _ ch).trans (Stacked.weights_hi _ _ _ o ch))))
  · exact (ld_bias _ _).trans ((oblk_at m c t _ _).trans ((congrFun (opnd_eq m c) _).trans
      ((Stacked.operand_bias _ _ _ _ _ _ _ _ _).trans (Stacked.biases_hi _ _ _ o))))

/-- An index of the array is in point `t`'s block iff each coordinate is in the block's range on its axis. -/
theorem mem_blk3 (t : Fin cfg0.N) (i : S320x1024.Idx) :
    i ∈ ((cfg0.win 3).blk t).view.set ↔ ∀ a : Fin 2, win0_3.index t a * S320x128.size a ≤ (i a).val
      ∧ (i a).val < win0_3.index t a * S320x128.size a + S320x128.size a := by
  show i ∈ ((View.whole main_v6_1).slice (win0_3.rect t)).set ↔ _
  rw [View.set_slice_whole, Rect.mem_set_unit]
  exact Iff.rfl

/-- Every column of the array lies in the block of the point that is its column tile's number. -/
theorem cover3 (i : S320x1024.Idx) :
    ∃ t : Fin cfg0.N, (cfg0.win 3).flush t = true ∧ i ∈ ((cfg0.win 3).blk t).view.set := by
  have hN : cfg0.N = 8 := N_0
  have hi0 : (i 0).val < 320 := (i 0).isLt
  have hi1 : (i 1).val < 1024 := (i 1).isLt
  refine ⟨⟨(i 1).val / 128, by omega⟩, flush0_3 _, ?_⟩
  rw [mem_blk3]
  obtain ⟨e0, e1⟩ := idx3 ⟨(i 1).val / 128, by omega⟩
  intro a
  match a with
  | ⟨0, _⟩ =>
    show win0_3.index ⟨(i 1).val / 128, _⟩ (0 : Fin 2) * 320 ≤ (i 0).val
      ∧ (i 0).val < win0_3.index ⟨(i 1).val / 128, _⟩ (0 : Fin 2) * 320 + 320
    rw [e0]; omega
  | ⟨1, _⟩ =>
    show win0_3.index ⟨(i 1).val / 128, _⟩ (1 : Fin 2) * 128 ≤ (i 1).val
      ∧ (i 1).val < win0_3.index ⟨(i 1).val / 128, _⟩ (1 : Fin 2) * 128 + 128
    rw [e1]; show (i 1).val / 128 * 128 ≤ (i 1).val ∧ (i 1).val < (i 1).val / 128 * 128 + 128; omega

/-- THE ARRAY after the region: the output-major box deltas of the arguments. -/
theorem final3 (c : Dev nD) : (dats m 0 c).arrAt 3 cfg0.N
    = Spec.deltasT (xflat m c) (m ((c : Thread nD τ).loc main_arg3)) (m ((c : Thread nD τ).loc main_arg4)) :=
  (dats m 0 c).arrAt_eq_of_cover 3 _ (fun t _ => flushed3_eq m c t) cover3

/-- After the region the array is transposed into the result: the box deltas of the arguments. -/
theorem result3 (c : Dev nD) :
    Pipeline.afterTail₀ cfgs (dats m) 0 (V0 m) [hostOps1] c main_v8
      = Spec.deltas (xflat m c) (m ((c : Thread nD τ).loc main_arg3)) (m ((c : Thread nD τ).loc main_arg4)) := by
  unfold Pipeline.afterTail₀
  show StableHlo.after hostOps1 _ (Proc.devRef .tc main_v8) = _
  after_results
  refine Eq.trans ?_ (Spec.transpose_deltasT _ _ _ transposes_S320x1024_S1024x320_1_0)
  exact congrArg (fun A => transpose S1024x320 [1, 0] A transposes_S320x1024_S1024x320_1_0)
    ((Pipeline.withArrays_arr spec0 launch0.win.arr_inj c _ _ 3).trans (final3 m c))

/-! ## The run, read -/

/-- Every weakly fair execution of the kernel terminates with the two results at the two heads of the flattened
    activations, the weights and the biases, the arguments unchanged. -/
theorem run : θ_run defs (onTc (τ := τ) (main (F := Ideal))) ⟨m, fun _ => 0, ρ⟩ fun r => ∀ c : Dev nD,
      r.2.mem ((c : Thread nD τ).loc main_v7)
        = Spec.scores (xflat m c) (m ((c : Thread nD τ).loc main_arg1)) (m ((c : Thread nD τ).loc main_arg2))
      ∧ r.2.mem ((c : Thread nD τ).loc main_v8)
        = Spec.deltas (xflat m c) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v7 (Pipeline.mem_restRefs_of main_v7 (by decide) (by decide))).trans (result2 m c),
      ((h c).2 main_v8 (Pipeline.mem_restRefs_of main_v8 (by decide) (by decide))).trans (result3 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KerValue

end
-- ==== Proof.ReferencePieces.lean ====
/-
  What one grid point of the idealized reference leaves in its two output blocks.

  The body's stores into each output block are one store of the whole block; the accumulator it reads back is what
  its own earlier stores left there (cleared, then updated once, since the spatial axis is one tile wide). So the
  block of class scores is the score head's payload over the accumulator's update of the cleared accumulator, and
  likewise the block of box deltas: nothing of the buffers' earlier contents survives in either.
-/
import proofs.«181179_g2000607049309062_pallasbulk_253_23_alg».proof.Proof.Gen.ReferenceIdeal.Frame
import Idealize.ShloMosaic.Lib.Pipeline.Value
import Idealize.ShloMosaic.Lib.Tactic

noncomputable section

namespace Cert.ReferenceIdeal.Pieces

open Cert.ReferenceIdeal Cert.ReferenceIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The class scores' block after the body: the score head of the accumulated tile, the weights and the bias row. -/
theorem out5_eq (c : Dev nD) (i : grid0.Coords) (arg2 : Memref sig .tc .vmem S128x256x49 .f32) (harg2 : arg2.IsWhole) (arg3 : Memref sig .tc .vmem S80x256 .f32) (harg3 : arg3.IsWhole) (arg4 : Memref sig .tc .vmem S1x80 .f32) (harg4 : arg4.IsWhole) (arg5 : Memref sig .tc .vmem S320x256 .f32) (harg5 : arg5.IsWhole) (arg6 : Memref sig .tc .vmem S1x320 .f32) (harg6 : arg6.IsWhole) (arg7 : Memref sig .tc .vmem S128x80 .f32) (harg7 : arg7.IsWhole) (arg8 : Memref sig .tc .vmem S128x320 .f32) (harg8 : arg8.IsWhole) (arg9 : Memref sig .tc .vmem S128x256 .f32) (harg9 : arg9.IsWhole) (hc0 : cond0_0 i) (hc1 : cond0_1 i)
    (x0 : Vec F S128x256x49 .f32) (x1 : Vec F S80x256 .f32) (x2 : Vec F S1x80 .f32) (x3 : Vec F S320x256 .f32) (x4 : Vec F S1x320 .f32) :
    out0_A_5 c i arg2 harg2 arg3 harg3 arg4 harg4 arg5 harg5 arg6 harg6 arg7 harg7 arg8 harg8 arg9 harg9 hc0 hc1 x0 x1 x2 x3 x4 = k0_pay4 (k0_pay2 x0 (k0_pay1 (F := F))) x1 x2 := by
  unfold out0_A_5
  rw [View.read_writes_eq_canon _ _ _ (cover0_A_5 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero (S := S128x80) hz2]
  simp only [View.readCov_cons_toLoadRect, View.readAt_eq_ld, harg2.read_unread, harg3.read_unread, harg4.read_unread,
    View.ld_unit_zero (S := S128x256x49) hz3, View.ld_unit_zero (S := S80x256) hz2, View.ld_unit_zero (S := S1x80) hz2]

/-- The box deltas' block after the body: the delta head of the same accumulated tile. -/
theorem out6_eq (c : Dev nD) (i : grid0.Coords) (arg2 : Memref sig .tc .vmem S128x256x49 .f32) (harg2 : arg2.IsWhole) (arg3 : Memref sig .tc .vmem S80x256 .f32) (harg3 : arg3.IsWhole) (arg4 : Memref sig .tc .vmem S1x80 .f32) (harg4 : arg4.IsWhole) (arg5 : Memref sig .tc .vmem S320x256 .f32) (harg5 : arg5.IsWhole) (arg6 : Memref sig .tc .vmem S1x320 .f32) (harg6 : arg6.IsWhole) (arg7 : Memref sig .tc .vmem S128x80 .f32) (harg7 : arg7.IsWhole) (arg8 : Memref sig .tc .vmem S128x320 .f32) (harg8 : arg8.IsWhole) (arg9 : Memref sig .tc .vmem S128x256 .f32) (harg9 : arg9.IsWhole) (hc0 : cond0_0 i) (hc1 : cond0_1 i)
    (x0 : Vec F S128x256x49 .f32) (x1 : Vec F S80x256 .f32) (x2 : Vec F S1x80 .f32) (x3 : Vec F S320x256 .f32) (x4 : Vec F S1x320 .f32) :
    out0_A_6 c i arg2 harg2 arg3 harg3 arg4 harg4 arg5 harg5 arg6 harg6 arg7 harg7 arg8 harg8 arg9 harg9 hc0 hc1 x0 x1 x2 x3 x4 = k0_pay5 (k0_pay2 x0 (k0_pay1 (F := F))) x3 x4 := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero (S := S128x320) hz2]
  simp only [View.readCov_cons_toLoadRect, View.readAt_eq_ld, harg2.read_unread, harg5.read_unread, harg6.read_unread,
    View.ld_unit_zero (S := S128x256x49) hz3, View.ld_unit_zero (S := S320x256) hz2, View.ld_unit_zero (S := S1x320) hz2]

end Cert.ReferenceIdeal.Pieces

end
-- ==== Proof.ReferencePayload.lean ====
/-
  The idealized reference's body, read at one entry of its blocks.

  At a grid point the body holds a [128, 256, 49] tile of activations `x` (row of the tile, channel, spatial position),
  both weight matrices and both bias rows, and a [128, 256] accumulator. It clears the accumulator, adds to it the
  tile summed over its 49 spatial positions, scales the accumulator by the literal `s` = f32(1/49), contracts the
  channels against each weight row and adds that row's bias: at tile row `r` and weight row `o`

      (∑ c, (acc[r, c] · s) · w[o, c]) + b[0, o],      acc[r, c] = 0 + ∑ h, x[r, c, h].
-/
import proofs.«181179_g2000607049309062_pallasbulk_253_23_alg».proof.Proof.Gen.ReferenceIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Payload

open Cert.ReferenceIdeal Cert.ReferenceIdeal.Gen Idealize.ShloMosaic Idealize.ShloMosaic.ValueIdx

/-- The pooling scale both programs multiply by: the f32 nearest to 1/49, read as the real it denotes. -/
abbrev scale : EReal := Ideal.ofBits .f32 0x3CA72F05#32

/-! ## The two contractions' operand indices -/

/-- The pooled tile is read at the output's row … -/
theorem lhsS_0 (i : S128x80.Idx) (q : dot_S128x256_S80x256_S128x80_1_1_0_0_n_n.contr.Idx) :
    (dot_S128x256_S80x256_S128x80_1_1_0_0_n_n.lhsIdx i q 0).val = (i 0).val := by
  unfold DotDims.lhsIdx
  rw [dif_neg (show ¬(0 : Fin S128x256.rank) ∈ dot_S128x256_S80x256_S128x80_1_1_0_0_n_n.lhsBatch by decide),
    dif_pos (show (0 : Fin S128x256.rank) ∈ dot_S128x256_S80x256_S128x80_1_1_0_0_n_n.lhsNonContracting by decide)]
  rfl

/-- … and the contracted channel; -/
theorem lhsS_1 (i : S128x80.Idx) (q : dot_S128x256_S80x256_S128x80_1_1_0_0_n_n.contr.Idx) :
    (dot_S128x256_S80x256_S128x80_1_1_0_0_n_n.lhsIdx i q 1).val = (q ⟨0, by decide⟩).val :=
  dot_S128x256_S80x256_S128x80_1_1_0_0_n_n.lhsIdx_val_of_single rfl i q

/-- the weights at the output's column (a weight row) … -/
theorem rhsS_0 (i : S128x80.Idx) (q : dot_S128x256_S80x256_S128x80_1_1_0_0_n_n.contr.Idx) :
    (dot_S128x256_S80x256_S128x80_1_1_0_0_n_n.rhsIdx i q 0).val = (i 1).val := by
  unfold DotDims.rhsIdx
  rw [dif_neg (show ¬(0 : Fin S80x256.rank) ∈ dot_S128x256_S80x256_S128x80_1_1_0_0_n_n.rhsBatch by decide),
    dif_pos (show (0 : Fin S80x256.rank) ∈ dot_S128x256_S80x256_S128x80_1_1_0_0_n_n.rhsNonContracting by decide)]
  rfl

/-- … and the same channel. -/
theorem rhsS_1 (i : S128x80.Idx) (q : dot_S128x256_S80x256_S128x80_1_1_0_0_n_n.contr.Idx) :
    (dot_S128x256_S80x256_S128x80_1_1_0_0_n_n.rhsIdx i q 1).val = (q ⟨0, by decide⟩).val :=
  dot_S128x256_S80x256_S128x80_1_1_0_0_n_n.rhsIdx_val_of_single rfl i q

/-- The pooled tile is read at the output's row … -/
theorem lhsD_0 (i : S128x320.Idx) (q : dot_S128x256_S320x256_S128x320_1_1_0_0_n_n.contr.Idx) :
    (dot_S128x256_S320x256_S128x320_1_1_0_0_n_n.lhsIdx i q 0).val = (i 0).val := by
  unfold DotDims.lhsIdx
  rw [dif_neg (show ¬(0 : Fin S128x256.rank) ∈ dot_S128x256_S320x256_S128x320_1_1_0_0_n_n.lhsBatch by decide),
    dif_pos (show (0 : Fin S128x256.rank) ∈ dot_S128x256_S320x256_S128x320_1_1_0_0_n_n.lhsNonContracting by decide)]
  rfl

/-- … and the contracted channel; -/
theorem lhsD_1 (i : S128x320.Idx) (q : dot_S128x256_S320x256_S128x320_1_1_0_0_n_n.contr.Idx) :
    (dot_S128x256_S320x256_S128x320_1_1_0_0_n_n.lhsIdx i q 1).val = (q ⟨0, by decide⟩).val :=
  dot_S128x256_S320x256_S128x320_1_1_0_0_n_n.lhsIdx_val_of_single rfl i q

/-- the weights at the output's column (a weight row) … -/
theorem rhsD_0 (i : S128x320.Idx) (q : dot_S128x256_S320x256_S128x320_1_1_0_0_n_n.contr.Idx) :
    (dot_S128x256_S320x256_S128x320_1_1_0_0_n_n.rhsIdx i q 0).val = (i 1).val := by
  unfold DotDims.rhsIdx
  rw [dif_neg (show ¬(0 : Fin S320x256.rank) ∈ dot_S128x256_S320x256_S128x320_1_1_0_0_n_n.rhsBatch by decide),
    dif_pos (show (0 : Fin S320x256.rank) ∈ dot_S128x256_S320x256_S128x320_1_1_0_0_n_n.rhsNonContracting by decide)]
  rfl

/-- … and the same channel. -/
theorem rhsD_1 (i : S128x320.Idx) (q : dot_S128x256_S320x256_S128x320_1_1_0_0_n_n.contr.Idx) :
    (dot_S128x256_S320x256_S128x320_1_1_0_0_n_n.rhsIdx i q 1).val = (q ⟨0, by decide⟩).val :=
  dot_S128x256_S320x256_S128x320_1_1_0_0_n_n.rhsIdx_val_of_single rfl i q

/-- The product of the pooled tile with the transposed weights, into zero: entry (r, o) is ∑ c, p[r, c] · w[o, c]. -/
theorem matmulS_at (p : FVec Ideal S128x256 .f32) (w : FVec Ideal S80x256 .f32) (r : Fin 128) (o : Fin 80) :
    matmul dot_S128x256_S80x256_S128x80_1_1_0_0_n_n none p w (constant (F := Ideal) S128x80 .f32 0x00000000#32) (ix2 r o)
      = ∑ k : Fin 256, p (ix2 r k) * w (ix2 o k) := by
  simp only [matmul]
  rw [Ideal.matmul_constant_zero_apply,
    ← Equiv.sum_comp (contrEquiv1 dot_S128x256_S80x256_S128x80_1_1_0_0_n_n 256 rfl rfl).symm]
  refine Finset.sum_congr rfl fun k _ => ?_
  have hk := contrEquiv1_symm_val dot_S128x256_S80x256_S128x80_1_1_0_0_n_n 256 rfl rfl k
  have el : dot_S128x256_S80x256_S128x80_1_1_0_0_n_n.lhsIdx (ix2 r o)
      ((contrEquiv1 dot_S128x256_S80x256_S128x80_1_1_0_0_n_n 256 rfl rfl).symm k) = ix2 r k :=
    funext fun a => Fin.ext (by
      match a with
      | ⟨0, _⟩ => exact lhsS_0 _ _
      | ⟨1, _⟩ => exact (lhsS_1 _ _).trans hk)
  have er : dot_S128x256_S80x256_S128x80_1_1_0_0_n_n.rhsIdx (ix2 r o)
      ((contrEquiv1 dot_S128x256_S80x256_S128x80_1_1_0_0_n_n 256 rfl rfl).symm k) = ix2 o k :=
    funext fun a => Fin.ext (by
      match a with
      | ⟨0, _⟩ => exact rhsS_0 _ _
      | ⟨1, _⟩ => exact (rhsS_1 _ _).trans hk)
  rw [el, er]

/-- The product of the pooled tile with the transposed weights, into zero: entry (r, o) is ∑ c, p[r, c] · w[o, c]. -/
theorem matmulD_at (p : FVec Ideal S128x256 .f32) (w : FVec Ideal S320x256 .f32) (r : Fin 128) (o : Fin 320) :
    matmul dot_S128x256_S320x256_S128x320_1_1_0_0_n_n none p w (constant (F := Ideal) S128x320 .f32 0x00000000#32) (ix2 r o)
      = ∑ k : Fin 256, p (ix2 r k) * w (ix2 o k) := by
  simp only [matmul]
  rw [Ideal.matmul_constant_zero_apply,
    ← Equiv.sum_comp (contrEquiv1 dot_S128x256_S320x256_S128x320_1_1_0_0_n_n 256 rfl rfl).symm]
  refine Finset.sum_congr rfl fun k _ => ?_
  have hk := contrEquiv1_symm_val dot_S128x256_S320x256_S128x320_1_1_0_0_n_n 256 rfl rfl k
  have el : dot_S128x256_S320x256_S128x320_1_1_0_0_n_n.lhsIdx (ix2 r o)
      ((contrEquiv1 dot_S128x256_S320x256_S128x320_1_1_0_0_n_n 256 rfl rfl).symm k) = ix2 r k :=
    funext fun a => Fin.ext (by
      match a with
      | ⟨0, _⟩ => exact lhsD_0 _ _
      | ⟨1, _⟩ => exact (lhsD_1 _ _).trans hk)
  have er : dot_S128x256_S320x256_S128x320_1_1_0_0_n_n.rhsIdx (ix2 r o)
      ((contrEquiv1 dot_S128x256_S320x256_S128x320_1_1_0_0_n_n 256 rfl rfl).symm k) = ix2 o k :=
    funext fun a => Fin.ext (by
      match a with
      | ⟨0, _⟩ => exact rhsD_0 _ _
      | ⟨1, _⟩ => exact (rhsD_1 _ _).trans hk)
  rw [el, er]

/-! ## The accumulator -/

/-- The tile summed over its spatial positions: entry (r, c) is ∑ h, x[r, c, h]. -/
theorem tilesum_at (x : FVec Ideal S128x256x49 .f32) (hacc : (0x00000000#32 : BitVec 32) = 0x00000000#32)
    (r : Fin 128) (c : Fin 256) :
    multiReduction .add [2] S128x256 x 0x00000000#32 reduces_S128x256x49_S128x256 (.inl rfl) hacc (ix2 r c)
      = ∑ h : Fin 49, x (ix3 r c h) := by
  refine (Ideal.multiReduction_add_single x 0x00000000#32 reduces_S128x256x49_S128x256 (.inl rfl) hacc (ix2 r c)).trans ?_
  refine Finset.sum_congr rfl fun h _ => congrArg x ?_
  funext a
  apply Fin.ext
  match a with
  | ⟨0, _⟩ => rfl
  | ⟨1, _⟩ => rfl
  | ⟨2, _⟩ => rfl

/-- The cleared accumulator is zero everywhere. -/
theorem pay1_at (j : S128x256.Idx) : k0_pay1 (F := Ideal) j = 0 := by
  unfold k0_pay1
  rw [shapeCast_self]
  exact Ideal.ofBits_zero_f32

/-- The update adds the tile's spatial sums to what the accumulator held. -/
theorem pay2_at (x : Vec Ideal S128x256x49 .f32) (a : Vec Ideal S128x256 .f32) (r : Fin 128) (c : Fin 256) :
    k0_pay2 (F := Ideal) x a (ix2 r c) = a (ix2 r c) + ∑ h : Fin 49, x (ix3 r c h) := by
  unfold k0_pay2
  rw [shapeCast_self, shapeCast_self]
  refine (addf_apply _ _ _).trans ?_
  exact congrArg (a (ix2 r c) + ·) (tilesum_at x rfl r c)

/-- So the accumulator the heads read is the tile's spatial sums. -/
theorem acc_at (x : Vec Ideal S128x256x49 .f32) (r : Fin 128) (c : Fin 256) :
    k0_pay2 (F := Ideal) x (k0_pay1 (F := Ideal)) (ix2 r c) = ∑ h : Fin 49, x (ix3 r c h) := by
  rw [pay2_at, pay1_at, zero_add]

/-! ## The two heads -/

/-- The pooled tile: the accumulator scaled. -/
theorem pay3_at (a : Vec Ideal S128x256 .f32) (r : Fin 128) (c : Fin 256) :
    k0_pay3 (F := Ideal) a (ix2 r c) = a (ix2 r c) * scale := by
  unfold k0_pay3
  exact mulf_apply _ _ _

/-- THE CLASS SCORES' BLOCK at tile row `r` and class `o`. -/
theorem pay4_at (a : Vec Ideal S128x256 .f32) (w : Vec Ideal S80x256 .f32) (b : Vec Ideal S1x80 .f32)
    (r : Fin 128) (o : Fin 80) :
    k0_pay4 (F := Ideal) a w b (ix2 r o)
      = (∑ c : Fin 256, (a (ix2 r c) * scale) * w (ix2 o c)) + b (ix2 (0 : Fin 1) o) := by
  unfold k0_pay4
  refine (addf_apply _ _ _).trans ?_
  refine congrArg₂ (· + ·) ?_ ?_
  · refine (matmulS_at _ _ r o).trans ?_
    exact Finset.sum_congr rfl fun c _ => congrArg (· * w (ix2 o c)) (pay3_at a r c)
  · rw [shapeCast_self]
    exact broadcastTo_1b_ab_apply b broadcasts_S1x80_S128x80 r o

/-- THE BOX DELTAS' BLOCK at tile row `r` and output `o`. -/
theorem pay5_at (a : Vec Ideal S128x256 .f32) (w : Vec Ideal S320x256 .f32) (b : Vec Ideal S1x320 .f32)
    (r : Fin 128) (o : Fin 320) :
    k0_pay5 (F := Ideal) a w b (ix2 r o)
      = (∑ c : Fin 256, (a (ix2 r c) * scale) * w (ix2 o c)) + b (ix2 (0 : Fin 1) o) := by
  unfold k0_pay5
  refine (addf_apply _ _ _).trans ?_
  refine congrArg₂ (· + ·) ?_ ?_
  · refine (matmulD_at _ _ r o).trans ?_
    exact Finset.sum_congr rfl fun c _ => congrArg (· * w (ix2 o c)) (pay3_at a r c)
  · rw [shapeCast_self]
    exact broadcastTo_1b_ab_apply b broadcasts_S1x320_S128x320 r o

end Cert.ReferenceIdeal.Payload

end
-- ==== Proof.ReferenceValue.lean ====
/-
  The idealized reference's two result arrays, as functions of its arguments.

  Before its one kernel region the reference flattens the spatial axes of the activations and turns each bias vector
  into a one-row matrix. The region's grid has one point per tile of 128 samples (its spatial axis is one tile wide, so
  the accumulator is cleared, updated once and read at every point). Point `t` reads rows 128 t … 128 t + 127 of the
  flattened activations, the whole weights and bias rows, and writes back rows 128 t … of both results: at (r, o) the
  head of sample 128 t + r. The eight row tiles cover each result, so each result array is the head of the arguments
  at every index.
-/
import proofs.«181179_g2000607049309062_pallasbulk_253_23_alg».proof.Proof.Gen.ReferenceIdeal.Value
import proofs.«181179_g2000607049309062_pallasbulk_253_23_alg».proof.Proof.ReferencePieces
import proofs.«181179_g2000607049309062_pallasbulk_253_23_alg».proof.Proof.ReferencePayload
import proofs.«181179_g2000607049309062_pallasbulk_253_23_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the region finds -/

/-- The flattened activations, as the region finds them. -/
abbrev xflat (c : Dev nD) : Vec Ideal S1024x256x49 .f32 := V m c main_v2

/-- They are the activations with the spatial axes flattened. -/
theorem xflat_eq (c : Dev nD) :
    xflat m c = shapeCast S1024x256x49 (m ((c : Thread nD τ).loc main_arg0)) shapeCasts_S1024x256x7x7_S1024x256x49 := by
  dsimp only [xflat, Gen.V, Gen.hostOps0]
  after_results
  rfl

/-- The class bias as a one-row matrix. -/
theorem biasRowS_eq (c : Dev nD) :
    (V m c main_v0 : Vec Ideal S1x80 .f32) = shapeCast S1x80 (m ((c : Thread nD τ).loc main_arg2)) shapeCasts_S80_S1x80 := by
  dsimp only [Gen.V, Gen.hostOps0]
  after_results
  rfl

/-- The delta bias as a one-row matrix. -/
theorem biasRowD_eq (c : Dev nD) :
    (V m c main_v1 : Vec Ideal S1x320 .f32) = shapeCast S1x320 (m ((c : Thread nD τ).loc main_arg4)) shapeCasts_S320_S1x320 := by
  dsimp only [Gen.V, Gen.hostOps0]
  after_results
  rfl

/-! ## The input windows' blocks -/

/-- The tile of activations point `t` reads. -/
abbrev xblk (c : Dev nD) (t : Fin cfg0.N) : Vec Ideal S128x256x49 .f32 := iblk m c 0 t

/-- The activations' block index at point `t`: row tile `t`, all channels, all positions. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)

/-- Row `r` of the tile is sample 128 t + r. -/
theorem xblk_at (c : Dev nD) (t : Fin cfg0.N) (r : Fin 128) (ch : Fin 256) (h : Fin 49) :
    xblk m c t (ix3 r ch h)
      = xflat m c (ix3 (⟨128 * t.val + r.val, by have hN : cfg0.N = 8 := N_0; have := t.isLt; omega⟩ : Fin 1024) ch h) := by
  obtain ⟨e0, e1, e2⟩ := idx0 t
  show V m c main_v2 (((cfg0.win 0).blk t).view.emb (ix3 r ch h)) = V m c main_v2 _
  refine congrArg (V m c main_v2) (funext fun a => Fin.ext ?_)
  match a with
  | ⟨0, _⟩ => show win0_0.index t (0 : Fin 3) * 128 + 1 * r.val = 128 * t.val + r.val; rw [e0]; omega
  | ⟨1, _⟩ => show win0_0.index t (1 : Fin 3) * 256 + 1 * ch.val = ch.val; rw [e1]; omega
  | ⟨2, _⟩ => show win0_0.index t (2 : Fin 3) * 49 + 1 * h.val = h.val; rw [e2]; omega

/-- The class weights point `t` reads. -/
abbrev wsblk (c : Dev nD) (t : Fin cfg0.N) : Vec Ideal S80x256 .f32 := iblk m c 1 t

theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The window's one block is the whole array. -/
theorem wsblk_whole (c : Dev nD) (t : Fin cfg0.N) (a : Fin 80) (b : Fin 256) :
    wsblk m c t (ix2 a b) = V m c main_arg1 (ix2 a b) := by
  obtain ⟨e0, e1⟩ := idx1 t
  show V m c main_arg1 (((cfg0.win 1).blk t).view.emb (ix2 a b)) = V m c main_arg1 (ix2 a b)
  refine congrArg (V m c main_arg1) (funext fun ax => Fin.ext ?_)
  match ax with
  | ⟨0, _⟩ => show win0_1.index t (0 : Fin 2) * 80 + 1 * a.val = a.val; rw [e0]; omega
  | ⟨1, _⟩ => show win0_1.index t (1 : Fin 2) * 256 + 1 * b.val = b.val; rw [e1]; omega

/-- The class bias row point `t` reads. -/
abbrev bsblk (c : Dev nD) (t : Fin cfg0.N) : Vec Ideal S1x80 .f32 := iblk m c 2 t

theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The window's one block is the whole array. -/
theorem bsblk_whole (c : Dev nD) (t : Fin cfg0.N) (a : Fin 1) (b : Fin 80) :
    bsblk m c t (ix2 a b) = V m c main_v0 (ix2 a b) := by
  obtain ⟨e0, e1⟩ := idx2 t
  show V m c main_v0 (((cfg0.win 2).blk t).view.emb (ix2 a b)) = V m c main_v0 (ix2 a b)
  refine congrArg (V m c main_v0) (funext fun ax => Fin.ext ?_)
  match ax with
  | ⟨0, _⟩ => show win0_2.index t (0 : Fin 2) * 1 + 1 * a.val = a.val; rw [e0]; omega
  | ⟨1, _⟩ => show win0_2.index t (1 : Fin 2) * 80 + 1 * b.val = b.val; rw [e1]; omega

/-- The delta weights point `t` reads. -/
abbrev wdblk (c : Dev nD) (t : Fin cfg0.N) : Vec Ideal S320x256 .f32 := iblk m c 3 t

theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The window's one block is the whole array. -/
theorem wdblk_whole (c : Dev nD) (t : Fin cfg0.N) (a : Fin 320) (b : Fin 256) :
    wdblk m c t (ix2 a b) = V m c main_arg3 (ix2 a b) := by
  obtain ⟨e0, e1⟩ := idx3 t
  show V m c main_arg3 (((cfg0.win 3).blk t).view.emb (ix2 a b)) = V m c main_arg3 (ix2 a b)
  refine congrArg (V m c main_arg3) (funext fun ax => Fin.ext ?_)
  match ax with
  | ⟨0, _⟩ => show win0_3.index t (0 : Fin 2) * 320 + 1 * a.val = a.val; rw [e0]; omega
  | ⟨1, _⟩ => show win0_3.index t (1 : Fin 2) * 256 + 1 * b.val = b.val; rw [e1]; omega

/-- The delta bias row point `t` reads. -/
abbrev bdblk (c : Dev nD) (t : Fin cfg0.N) : Vec Ideal S1x320 .f32 := iblk m c 4 t

theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- The window's one block is the whole array. -/
theorem bdblk_whole (c : Dev nD) (t : Fin cfg0.N) (a : Fin 1) (b : Fin 320) :
    bdblk m c t (ix2 a b) = V m c main_v1 (ix2 a b) := by
  obtain ⟨e0, e1⟩ := idx4 t
  show V m c main_v1 (((cfg0.win 4).blk t).view.emb (ix2 a b)) = V m c main_v1 (ix2 a b)
  refine congrArg (V m c main_v1) (funext fun ax => Fin.ext ?_)
  match ax with
  | ⟨0, _⟩ => show win0_4.index t (0 : Fin 2) * 1 + 1 * a.val = a.val; rw [e0]; omega
  | ⟨1, _⟩ => show win0_4.index t (1 : Fin 2) * 320 + 1 * b.val = b.val; rw [e1]; omega

/-- The class weights are the argument's. -/
theorem wsblk_at (c : Dev nD) (t : Fin cfg0.N) (o : Fin 80) (ch : Fin 256) :
    wsblk m c t (ix2 o ch) = m ((c : Thread nD τ).loc main_arg1) (ix2 o ch) :=
  (wsblk_whole m c t o ch).trans (congrFun (V_main_arg1 m c) _)

/-- The delta weights are the argument's. -/
theorem wdblk_at (c : Dev nD) (t : Fin cfg0.N) (o : Fin 320) (ch : Fin 256) :
    wdblk m c t (ix2 o ch) = m ((c : Thread nD τ).loc main_arg3) (ix2 o ch) :=
  (wdblk_whole m c t o ch).trans (congrFun (V_main_arg3 m c) _)

/-- The class bias row holds the bias vector. -/
theorem bsblk_at (c : Dev nD) (t : Fin cfg0.N) (o : Fin 80) :
    bsblk m c t (ix2 (0 : Fin 1) o) = m ((c : Thread nD τ).loc main_arg2) (ix1 o) :=
  (bsblk_whole m c t 0 o).trans ((congrFun (biasRowS_eq m c) _).trans
    (shapeCast_a_1a_apply (m ((c : Thread nD τ).loc main_arg2)) shapeCasts_S80_S1x80 0 o))

/-- The delta bias row holds the bias vector. -/
theorem bdblk_at (c : Dev nD) (t : Fin cfg0.N) (o : Fin 320) :
    bdblk m c t (ix2 (0 : Fin 1) o) = m ((c : Thread nD τ).loc main_arg4) (ix1 o) :=
  (bdblk_whole m c t 0 o).trans ((congrFun (biasRowD_eq m c) _).trans
    (shapeCast_a_1a_apply (m ((c : Thread nD τ).loc main_arg4)) shapeCasts_S320_S1x320 0 o))

/-! ## The class scores (output window 5) -/

/-- The block index of output window 5 at point `t`: row tile `t`, the one column tile. -/
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- WHAT POINT `t` WRITES BACK is block `t` of the class scores of the arguments. -/
theorem flushed5_eq (c : Dev nD) (t : Fin cfg0.N) :
    (dats m 0 c).flushed 5 t = ((cfg0.win 5).blk t).view.read (Elt Ideal)
      (Spec.scores (xflat m c) (m ((c : Thread nD τ).loc main_arg1)) (m ((c : Thread nD τ).loc main_arg2))) := by
  have hN : cfg0.N = 8 := N_0
  have ht : t.val < 8 := by have := t.isLt; omega
  rw [flushed5_A, Pieces.out5_eq]
  funext j
  obtain ⟨r, o, rfl⟩ : ∃ (r : Fin 128) (o : Fin 80), j = ix2 r o := ⟨j 0, j 1, eq_ix2 j⟩
  obtain ⟨e0, e1⟩ := idx5 t
  have hi : ((cfg0.win 5).blk t).view.emb (ix2 r o) = ix2 (⟨128 * t.val + r.val, by omega⟩ : Fin 1024) o :=
    funext fun a => Fin.ext (by
      match a with
      | ⟨0, _⟩ => show win0_5.index t (0 : Fin 2) * 128 + 1 * r.val = 128 * t.val + r.val; rw [e0]; omega
      | ⟨1, _⟩ => show win0_5.index t (1 : Fin 2) * 80 + 1 * o.val = o.val; rw [e1]; omega)
  show k0_pay4 (F := Ideal) (k0_pay2 (xblk m c t) (k0_pay1 (F := Ideal))) (wsblk m c t) (bsblk m c t) (ix2 r o)
    = Spec.scores (xflat m c) (m ((c : Thread nD τ).loc main_arg1)) (m ((c : Thread nD τ).loc main_arg2))
        (((cfg0.win 5).blk t).view.emb (ix2 r o))
  rw [hi]
  refine (Payload.pay4_at _ _ _ r o).trans ?_
  show _ = Spec.headAt (xflat m c) (fun o ch => m ((c : Thread nD τ).loc main_arg1) (ix2 o ch))
    (fun o => m ((c : Thread nD τ).loc main_arg2) (ix1 o)) (⟨128 * t.val + r.val, by omega⟩ : Fin 1024) o
  unfold Spec.headAt Spec.pooled
  refine congrArg₂ (· + ·) (Finset.sum_congr rfl fun ch _ => ?_) (bsblk_at m c t o)
  refine congrArg₂ (· * ·) (congrArg (· * Spec.scale) ?_) (wsblk_at m c t o ch)
  exact (Payload.acc_at _ r ch).trans (Finset.sum_congr rfl fun h _ => xblk_at m c t r ch h)

/-- An index of the array is in point `t`'s block iff each coordinate is in the block's range on its axis. -/
theorem mem_blk5 (t : Fin cfg0.N) (i : S1024x80.Idx) :
    i ∈ ((cfg0.win 5).blk t).view.set ↔ ∀ a : Fin 2, win0_5.index t a * S128x80.size a ≤ (i a).val
      ∧ (i a).val < win0_5.index t a * S128x80.size a + S128x80.size a := by
  show i ∈ ((View.whole main_v3_0).slice (win0_5.rect t)).set ↔ _
  rw [View.set_slice_whole, Rect.mem_set_unit]
  exact Iff.rfl

/-- Every row of the array lies in the block of the point that is its row tile's number. -/
theorem cover5 (i : S1024x80.Idx) :
    ∃ t : Fin cfg0.N, (cfg0.win 5).flush t = true ∧ i ∈ ((cfg0.win 5).blk t).view.set := by
  have hN : cfg0.N = 8 := N_0
  have hi0 : (i 0).val < 1024 := (i 0).isLt
  have hi1 : (i 1).val < 80 := (i 1).isLt
  refine ⟨⟨(i 0).val / 128, by omega⟩, flush0_5 _, ?_⟩
  rw [mem_blk5]
  obtain ⟨e0, e1⟩ := idx5 ⟨(i 0).val / 128, by omega⟩
  intro a
  match a with
  | ⟨0, _⟩ =>
    show win0_5.index ⟨(i 0).val / 128, _⟩ (0 : Fin 2) * 128 ≤ (i 0).val
      ∧ (i 0).val < win0_5.index ⟨(i 0).val / 128, _⟩ (0 : Fin 2) * 128 + 128
    rw [e0]; show (i 0).val / 128 * 128 ≤ (i 0).val ∧ (i 0).val < (i 0).val / 128 * 128 + 128; omega
  | ⟨1, _⟩ =>
    show win0_5.index ⟨(i 0).val / 128, _⟩ (1 : Fin 2) * 80 ≤ (i 1).val
      ∧ (i 1).val < win0_5.index ⟨(i 0).val / 128, _⟩ (1 : Fin 2) * 80 + 80
    rw [e1]; omega

/-- THE ARRAY after the run: the class scores of the arguments. -/
theorem final5 (c : Dev nD) : (dats m 0 c).arrAt 5 cfg0.N
    = Spec.scores (xflat m c) (m ((c : Thread nD τ).loc main_arg1)) (m ((c : Thread nD τ).loc main_arg2)) :=
  (dats m 0 c).arrAt_eq_of_cover 5 _ (fun t _ => flushed5_eq m c t) cover5

/-! ## The box deltas (output window 6) -/

/-- The block index of output window 6 at point `t`: row tile `t`, the one column tile. -/
theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- WHAT POINT `t` WRITES BACK is block `t` of the box deltas of the arguments. -/
theorem flushed6_eq (c : Dev nD) (t : Fin cfg0.N) :
    (dats m 0 c).flushed 6 t = ((cfg0.win 6).blk t).view.read (Elt Ideal)
      (Spec.deltas (xflat m c) (m ((c : Thread nD τ).loc main_arg3)) (m ((c : Thread nD τ).loc main_arg4))) := by
  have hN : cfg0.N = 8 := N_0
  have ht : t.val < 8 := by have := t.isLt; omega
  rw [flushed6_A, Pieces.out6_eq]
  funext j
  obtain ⟨r, o, rfl⟩ : ∃ (r : Fin 128) (o : Fin 320), j = ix2 r o := ⟨j 0, j 1, eq_ix2 j⟩
  obtain ⟨e0, e1⟩ := idx6 t
  have hi : ((cfg0.win 6).blk t).view.emb (ix2 r o) = ix2 (⟨128 * t.val + r.val, by omega⟩ : Fin 1024) o :=
    funext fun a => Fin.ext (by
      match a with
      | ⟨0, _⟩ => show win0_6.index t (0 : Fin 2) * 128 + 1 * r.val = 128 * t.val + r.val; rw [e0]; omega
      | ⟨1, _⟩ => show win0_6.index t (1 : Fin 2) * 320 + 1 * o.val = o.val; rw [e1]; omega)
  show k0_pay5 (F := Ideal) (k0_pay2 (xblk m c t) (k0_pay1 (F := Ideal))) (wdblk m c t) (bdblk m c t) (ix2 r o)
    = Spec.deltas (xflat m c) (m ((c : Thread nD τ).loc main_arg3)) (m ((c : Thread nD τ).loc main_arg4))
        (((cfg0.win 6).blk t).view.emb (ix2 r o))
  rw [hi]
  refine (Payload.pay5_at _ _ _ r o).trans ?_
  show _ = Spec.headAt (xflat m c) (fun o ch => m ((c : Thread nD τ).loc main_arg3) (ix2 o ch))
    (fun o => m ((c : Thread nD τ).loc main_arg4) (ix1 o)) (⟨128 * t.val + r.val, by omega⟩ : Fin 1024) o
  unfold Spec.headAt Spec.pooled
  refine congrArg₂ (· + ·) (Finset.sum_congr rfl fun ch _ => ?_) (bdblk_at m c t o)
  refine congrArg₂ (· * ·) (congrArg (· * Spec.scale) ?_) (wdblk_at m c t o ch)
  exact (Payload.acc_at _ r ch).trans (Finset.sum_congr rfl fun h _ => xblk_at m c t r ch h)

/-- An index of the array is in point `t`'s block iff each coordinate is in the block's range on its axis. -/
theorem mem_blk6 (t : Fin cfg0.N) (i : S1024x320.Idx) :
    i ∈ ((cfg0.win 6).blk t).view.set ↔ ∀ a : Fin 2, win0_6.index t a * S128x320.size a ≤ (i a).val
      ∧ (i a).val < win0_6.index t a * S128x320.size a + S128x320.size a := by
  show i ∈ ((View.whole main_v3_1).slice (win0_6.rect t)).set ↔ _
  rw [View.set_slice_whole, Rect.mem_set_unit]
  exact Iff.rfl

/-- Every row of the array lies in the block of the point that is its row tile's number. -/
theorem cover6 (i : S1024x320.Idx) :
    ∃ t : Fin cfg0.N, (cfg0.win 6).flush t = true ∧ i ∈ ((cfg0.win 6).blk t).view.set := by
  have hN : cfg0.N = 8 := N_0
  have hi0 : (i 0).val < 1024 := (i 0).isLt
  have hi1 : (i 1).val < 320 := (i 1).isLt
  refine ⟨⟨(i 0).val / 128, by omega⟩, flush0_6 _, ?_⟩
  rw [mem_blk6]
  obtain ⟨e0, e1⟩ := idx6 ⟨(i 0).val / 128, by omega⟩
  intro a
  match a with
  | ⟨0, _⟩ =>
    show win0_6.index ⟨(i 0).val / 128, _⟩ (0 : Fin 2) * 128 ≤ (i 0).val
      ∧ (i 0).val < win0_6.index ⟨(i 0).val / 128, _⟩ (0 : Fin 2) * 128 + 128
    rw [e0]; show (i 0).val / 128 * 128 ≤ (i 0).val ∧ (i 0).val < (i 0).val / 128 * 128 + 128; omega
  | ⟨1, _⟩ =>
    show win0_6.index ⟨(i 0).val / 128, _⟩ (1 : Fin 2) * 320 ≤ (i 1).val
      ∧ (i 1).val < win0_6.index ⟨(i 0).val / 128, _⟩ (1 : Fin 2) * 320 + 320
    rw [e1]; omega

/-- THE ARRAY after the run: the box deltas of the arguments. -/
theorem final6 (c : Dev nD) : (dats m 0 c).arrAt 6 cfg0.N
    = Spec.deltas (xflat m c) (m ((c : Thread nD τ).loc main_arg3)) (m ((c : Thread nD τ).loc main_arg4)) :=
  (dats m 0 c).arrAt_eq_of_cover 6 _ (fun t _ => flushed6_eq m c t) cover6

/-! ## The run, read -/

/-- Every weakly fair execution of the reference terminates with the two results at the two heads of the flattened
    activations, the weights and the biases, the arguments unchanged. -/
theorem run : θ_run defs (onTc (τ := τ) (main (F := Ideal))) ⟨m, fun _ => 0, ρ⟩ fun r => ∀ c : Dev nD,
      r.2.mem ((c : Thread nD τ).loc main_v3_0)
        = Spec.scores (shapeCast S1024x256x49 (m ((c : Thread nD τ).loc main_arg0)) shapeCasts_S1024x256x7x7_S1024x256x49)
            (m ((c : Thread nD τ).loc main_arg1)) (m ((c : Thread nD τ).loc main_arg2))
      ∧ r.2.mem ((c : Thread nD τ).loc main_v3_1)
        = Spec.deltas (shapeCast S1024x256x49 (m ((c : Thread nD τ).loc main_arg0)) shapeCasts_S1024x256x7x7_S1024x256x49)
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨(h c).1.trans ((final5 m c).trans (by rw [xflat_eq])),
      (h c).2.1.trans ((final6 m c).trans (by rw [xflat_eq])),
      (h c).2.2⟩)
    (Value.run_blocks m ρ)

end Cert.ReferenceIdeal.RefValue

end
-- ==== Proof.lean ====
/-
  The certificate of a fused detection head: global average pooling of activations [1024, 256, 7, 7] over their 49
  spatial positions, then two linear heads (80 class scores and 320 box deltas per sample), against a reference that
  computes the same with another tiling.

  Both programs are one kernel region between host operations. The kernel moves the spatial axes in front, stacks the
  two heads' weights and biases into one operand, computes the output-major heads tile by tile of 128 samples —
  weight times pooled value — and transposes them afterwards. The reference keeps the sample axis in front, accumulates
  the spatial sum into a cleared scratch, and computes pooled value times weight for each head. On the extended reals
  both results are

      head[n, o] = (∑ c, ((∑ h, x[n, c, h]) · s) · w[o, c]) + b[o],        s = f32(1/49),

  the same literal `s` on both sides: the two spellings differ by the order of the factors of each product and by
  a zero the reference adds first, so the inputs' finiteness is never used. The three frames are the generated ones;
  the idealization rewrote nothing.
-/
import proofs.«181179_g2000607049309062_pallasbulk_253_23_alg».proof.Defs
import proofs.«181179_g2000607049309062_pallasbulk_253_23_alg».proof.Proof.Gen.Kernel
import proofs.«181179_g2000607049309062_pallasbulk_253_23_alg».proof.Proof.Gen.Kernel.Frame
import proofs.«181179_g2000607049309062_pallasbulk_253_23_alg».proof.Proof.Gen.KernelIdeal
import proofs.«181179_g2000607049309062_pallasbulk_253_23_alg».proof.Proof.Gen.KernelIdeal.Frame
import proofs.«181179_g2000607049309062_pallasbulk_253_23_alg».proof.Proof.Gen.ReferenceIdeal
import proofs.«181179_g2000607049309062_pallasbulk_253_23_alg».proof.Proof.Gen.ReferenceIdeal.Frame
import proofs.«181179_g2000607049309062_pallasbulk_253_23_alg».proof.Proof.Gen.ReferenceIdeal.Value
import proofs.«181179_g2000607049309062_pallasbulk_253_23_alg».proof.Proof.Gen.Pre_finite_inputs
import proofs.«181179_g2000607049309062_pallasbulk_253_23_alg».proof.Proof.KernelValue
import proofs.«181179_g2000607049309062_pallasbulk_253_23_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does its idealization, -/
theorem frame_ki : Cert.frame_KernelIdeal := fun m ρ _ => Cert.KernelIdeal.Gen.frame m ρ

/-- and the idealized reference. -/
theorem frame_ri : Cert.frame_ReferenceIdeal := fun m ρ _ => Cert.ReferenceIdeal.Gen.frame m ρ

/-- The idealization rewrote no operation. -/
theorem preserves : Cert.preserves_Kernel_KernelIdeal := trivial

/-- From memories that agree on the arguments both idealized programs end with the two heads of the flattened
    activations, the weights and the biases: one function of the arguments. -/
theorem algebraic : Cert.algebraic_KernelIdeal_ReferenceIdeal := by
  intro m ρ m' ρ' _ hagree
  refine ⟨_, _, Cert.KernelIdeal.KerValue.run m ρ, ?_⟩
  refine (θ_run Cert.ReferenceIdeal.defs _ _).mono (fun r h c => ?_) (Cert.ReferenceIdeal.RefValue.run m' ρ')
  obtain ⟨h0, h1, h2⟩ := h c
  obtain ⟨a0, a1, a2, a3, a4⟩ := hagree c
  refine ⟨h0.trans ?_, h1.trans ?_, h2⟩
  · rw [a0, a1, a2]
  · rw [a0, a3, a4]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
